-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S11008x1x1x1 : S_.BroadcastsInDim S11008x1x1x1 (![] : Fin 0 → Fin S11008x1x1x1.rank)
  reducesTo_S11008x1x1x1_S_d0_1_2_3 : S11008x1x1x1.ReducesTo [0, 1, 2, 3] S_
  bcast_S_S11008 : S_.BroadcastsInDim S11008 (![] : Fin 0 → Fin S11008.rank)
  reducesTo_S11008_S_d0 : S11008.ReducesTo [0] S_
  bcast_S_S11008x512x2 : S_.BroadcastsInDim S11008x512x2 (![] : Fin 0 → Fin S11008x512x2.rank)
  reducesTo_S11008x512x2_S_d0_1_2 : S11008x512x2.ReducesTo [0, 1, 2] S_

variable [Facts]

def fn_part1 {F : FTy → Type} [FloatOps F] (main_arg1 : IVec S11008x512x2 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 0#32
  let main_v19 : IVec S11008x512x2 32 := broadcastInDim S11008x512x2 ![] bcast_S_S11008x512x2 main_c_6
  let main_v20 : IVec S11008x512x2 1 := cmpi .sge main_arg1 main_v19
  let main_c_7 : IVec S_ 32 := constantI S_ 32 256#32
  let main_v21 : IVec S11008x512x2 32 := broadcastInDim S11008x512x2 ![] bcast_S_S11008x512x2 main_c_7
  let main_v22 : IVec S11008x512x2 1 := cmpi .slt main_arg1 main_v21
  let main_v23 : IVec S11008x512x2 1 := andi main_v20 main_v22
  let main_c_8 : IVec S_ 1 := constantI S_ 1 1#1
  let main_v24 : IVec S_ 1 := (fun x v => Host.reduce IntOp.andi x v reducesTo_S11008x512x2_S_d0_1_2 h_S_) main_v23 main_c_8
  let main_v25 : IVec S_ 1 := andi main_v18 main_v24
  main_v25

def fn {F : FTy → Type} [FloatOps F] (main_arg0 : FVec F S4x2048x4096 .f32) (main_arg1 : IVec S11008x512x2 32) (main_arg2 : FVec F S2x256x1x8 .f32) (main_arg3 : FVec F S11008x1x1x1 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S11008x1x1x1 .f32 := Host.absf main_arg3
  let main_cst_2 : FVec F S_ .f32 := constant S_ .f32 0x7F800000#32
  let main_v10 : FVec F S11008x1x1x1 .f32 := broadcastInDim S11008x1x1x1 ![] bcast_S_S11008x1x1x1 main_cst_2
  let main_v11 : IVec S11008x1x1x1 1 := cmpf .olt main_v9 main_v10
  let main_c_3 : IVec S_ 1 := constantI S_ 1 1#1
  let main_v12 : IVec S_ 1 := (fun x v => Host.reduce IntOp.andi x v reducesTo_S11008x1x1x1_S_d0_1_2_3 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg1 main_v13 main_v16
-- ==== Kernel.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S11008x512x1 : Shape := ⟨3, ![11008, 512, 1]⟩
abbrev S11008x512 : Shape := ⟨2, ![11008, 512]⟩
abbrev S8192x4096 : Shape := ⟨2, ![8192, 4096]⟩
abbrev S11008x4096 : Shape := ⟨2, ![11008, 4096]⟩
abbrev S256x512 : Shape := ⟨2, ![256, 512]⟩
abbrev S256x1x1x1 : Shape := ⟨4, ![256, 1, 1, 1]⟩
abbrev S256x4096 : Shape := ⟨2, ![256, 4096]⟩
abbrev S1x256x1x8 : Shape := ⟨4, ![1, 256, 1, 8]⟩
abbrev S256x8 : Shape := ⟨2, ![256, 8]⟩
abbrev S256x1x1 : Shape := ⟨3, ![256, 1, 1]⟩
abbrev S256x32x256 : Shape := ⟨3, ![256, 32, 256]⟩
abbrev S256x32 : Shape := ⟨2, ![256, 32]⟩
abbrev S256x32x1 : Shape := ⟨3, ![256, 32, 1]⟩
abbrev S8192x256 : Shape := ⟨2, ![8192, 256]⟩
abbrev S8192x8 : Shape := ⟨2, ![8192, 8]⟩
abbrev S256x32x8 : Shape := ⟨3, ![256, 32, 8]⟩
abbrev S256x256 : Shape := ⟨2, ![256, 256]⟩
abbrev S1x11008 : Shape := ⟨2, ![1, 11008]⟩
abbrev S8192x11008 : Shape := ⟨2, ![8192, 11008]⟩
abbrev S2048x4096 : Shape := ⟨2, ![2048, 4096]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S11008x512x2, .i32⟩
  | .hbm, ⟨2, _⟩ => ⟨S2x256x1x8, .f32⟩
  | .hbm, ⟨3, _⟩ => ⟨S11008x1x1x1, .f32⟩
  | .hbm, ⟨4, _⟩ => ⟨S11008, .f32⟩
  | .hbm, ⟨5, _⟩ => ⟨S11008x512x1, .i32⟩
  | .hbm, ⟨6, _⟩ => ⟨S11008x512, .i32⟩
  | .hbm, ⟨7, _⟩ => ⟨S11008x512x1, .i32⟩
  | .hbm, ⟨8, _⟩ => ⟨S11008x512, .i32⟩
  | .hbm, ⟨9, _⟩ => ⟨S8192x4096, .f32⟩
  | .hbm, ⟨10, _⟩ => ⟨S8192x4096, .bf16⟩
  | .hbm, ⟨11, _⟩ => ⟨S11008x4096, .bf16⟩
  | .hbm, ⟨12, _⟩ => ⟨S1x11008, .f32⟩
  | .hbm, ⟨13, _⟩ => ⟨S8192x11008, .f32⟩
  | .hbm, ⟨14, _⟩ => ⟨S4x2048x11008, .f32⟩
  | .local _ .vmem, ⟨0, _⟩ => ⟨S256x512, .i32⟩
  | .local _ .vmem, ⟨1, _⟩ => ⟨S256x512, .i32⟩
  | .local _ .vmem, ⟨2, _⟩ => ⟨S256x512, .i32⟩
  | .local _ .vmem, ⟨3, _⟩ => ⟨S256x512, .i32⟩
  | .local _ .vmem, ⟨4, _⟩ => ⟨S2x256x1x8, .f32⟩
  | .local _ .vmem, ⟨5, _⟩ => ⟨S256x1x1x1, .f32⟩
  | .local _ .vmem, ⟨6, _⟩ => ⟨S256x1x1x1, .f32⟩
  | .local _ .vmem, ⟨7, _⟩ => ⟨S256x4096, .bf16⟩
  | .local _ .vmem, ⟨8, _⟩ => ⟨S256x4096, .bf16⟩
  | .local _ .vmem, ⟨9, _⟩ => ⟨S2048x4096, .bf16⟩
  | .local _ .vmem, ⟨10, _⟩ => ⟨S2048x4096, .bf16⟩
  | .local _ .vmem, ⟨11, _⟩ => ⟨S256x4096, .bf16⟩
  | .local _ .vmem, ⟨12, _⟩ => ⟨S256x4096, .bf16⟩
  | .local _ .vmem, ⟨13, _⟩ => ⟨S1x256, .f32⟩
  | .local _ .vmem, ⟨14, _⟩ => ⟨S1x256, .f32⟩
  | .local _ .vmem, ⟨15, _⟩ => ⟨S2048x256, .f32⟩
  | .local _ .vmem, ⟨16, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S11008x512x2_S11008x512x1_0_0_0 : S11008x512x2.Slices ![0, 0, 0] S11008x512x1
  shapeCasts_S11008x512x1_S11008x512 : S11008x512x1.ShapeCasts S11008x512
  slices_S11008x512x2_S11008x512x1_0_0_1 : S11008x512x2.Slices ![0, 0, 1] S11008x512x1
  shapeCasts_S4x2048x4096_S8192x4096 : S4x2048x4096.ShapeCasts S8192x4096
  bitsLt_bf16_f32 : FTy.bits .bf16 < FTy.bits .f32
  inb_S2x256x1x8_S1x256x1x8_0_0_0_0 : ∀ a, (![0, 0, 0, 0] : Fin 4 → Nat) a + S1x256x1x8.size a ≤ S2x256x1x8.size a
  h_S1x256x1x8 : 0 < S1x256x1x8.numel
  shapeCasts_S1x256x1x8_S256x8 : S1x256x1x8.ShapeCasts S256x8
  inb_S2x256x1x8_S1x256x1x8_1_0_0_0 : ∀ a, (![1, 0, 0, 0] : Fin 4 → Nat) a + S1x256x1x8.size a ≤ S2x256x1x8.size a
  inb_S256x1x1x1_S256x1x1x1_0_0_0_0 : ∀ a, (![0, 0, 0, 0] : Fin 4 → Nat) a + S256x1x1x1.size a ≤ S256x1x1x1.size a
  h_S256x1x1x1 : 0 < S256x1x1x1.numel
  shapeCasts_S256x1x1x1_S256x1x1 : S256x1x1x1.ShapeCasts S256x1x1
  iota_S256x32x256_d2_w32 : S256x32x256.Iotas .tc 32 [2]
  inb_S256x512_S256x32_0_0 : ∀ a, (![0, 0] : Fin 2 → Nat) a + S256x32.size a ≤ S256x512.size a
  h_S256x32 : 0 < S256x32.numel
  shapeCasts_S256x32_S256x32 : S256x32.ShapeCasts S256x32
  shapeCasts_S256x32_S256x32x1 : S256x32.ShapeCasts S256x32x1
  broadcasts_S256x32x1_S256x32x256 : S256x32x1.Broadcasts S256x32x256
  natLt_1_32 : 1 < 32
  shapeCasts_S256x32x256_S8192x256 : S256x32x256.ShapeCasts S8192x256
  shapeCasts_S8192x8_S256x32x8 : S8192x8.ShapeCasts S256x32x8
  broadcasts_S256x1x1_S256x32x8 : S256x1x1.Broadcasts S256x32x8
  shapeCasts_S256x32x8_S256x256 : S256x32x8.ShapeCasts S256x256
  inb_S256x4096_S256x256_0_0 : ∀ a, (![0, 0] : Fin 2 → Nat) a + S256x256.size a ≤ S256x4096.size a
  h_S256x256 : 0 < S256x256.numel
  packedbf16_S256x4096_S256x256_0_0 : (Rect.unit (s := S256x4096) ![0, 0] S256x256.size inb_S256x4096_S256x256_0_0).PackedRows (EltTy.packing .bf16)
  inb_S256x512_S256x32_0_32 : ∀ a, (![0, 32] : Fin 2 → Nat) a + S256x32.size a ≤ S256x512.size a
  inb_S256x4096_S256x256_0_256 : ∀ a, (![0, 256] : Fin 2 → Nat) a + S256x256.size a ≤ S256x4096.size a
  packedbf16_S256x4096_S256x256_0_256 : (Rect.unit (s := S256x4096) ![0, 256] S256x256.size inb_S256x4096_S256x256_0_256).PackedRows (EltTy.packing .bf16)
  inb_S256x512_S256x32_0_64 : ∀ a, (![0, 64] : Fin 2 → Nat) a + S256x32.size a ≤ S256x512.size a
  inb_S256x4096_S256x256_0_512 : ∀ a, (![0, 512] : Fin 2 → Nat) a + S256x256.size a ≤ S256x4096.size a
  packedbf16_S256x4096_S256x256_0_512 : (Rect.unit (s := S256x4096) ![0, 512] S256x256.size inb_S256x4096_S256x256_0_512).PackedRows (EltTy.packing .bf16)
  inb_S256x512_S256x32_0_96 : ∀ a, (![0, 96] : Fin 2 → Nat) a + S256x32.size a ≤ S256x512.size a
  inb_S256x4096_S256x256_0_768 : ∀ a, (![0, 768] : Fin 2 → Nat) a + S256x256.size a ≤ S256x4096.size a
  packedbf16_S256x4096_S256x256_0_768 : (Rect.unit (s := S256x4096) ![0, 768] S256x256.size inb_S256x4096_S256x256_0_768).PackedRows (EltTy.packing .bf16)
  inb_S256x512_S256x32_0_128 : ∀ a, (![0, 128] : Fin 2 → Nat) a + S256x32.size a ≤ S256x512.size a
  inb_S256x4096_S256x256_0_1024 : ∀ a, (![0, 1024] : Fin 2 → Nat) a + S256x256.size a ≤ S256x4096.size a
  packedbf16_S256x4096_S256x256_0_1024 : (Rect.unit (s := S256x4096) ![0, 1024] S256x256.size inb_S256x4096_S256x256_0_1024).PackedRows (EltTy.packing .bf16)
  inb_S256x512_S256x32_0_160 : ∀ a, (![0, 160] : Fin 2 → Nat) a + S256x32.size a ≤ S256x512.size a
  inb_S256x4096_S256x256_0_1280 : ∀ a, (![0, 1280] : Fin 2 → Nat) a + S256x256.size a ≤ S256x4096.size a
  packedbf16_S256x4096_S256x256_0_1280 : (Rect.unit (s := S256x4096) ![0, 1280] S256x256.size inb_S256x4096_S256x256_0_1280).PackedRows (EltTy.packing .bf16)
  inb_S256x512_S256x32_0_192 : ∀ a, (![0, 192] : Fin 2 → Nat) a + S256x32.size a ≤ S256x512.size a
  inb_S256x4096_S256x256_0_1536 : ∀ a, (![0, 1536] : Fin 2 → Nat) a + S256x256.size a ≤ S256x4096.size a
  packedbf16_S256x4096_S256x256_0_1536 : (Rect.unit (s := S256x4096) ![0, 1536] S256x256.size inb_S256x4096_S256x256_0_1536).PackedRows (EltTy.packing .bf16)
  inb_S256x512_S256x32_0_224 : ∀ a, (![0, 224] : Fin 2 → Nat) a + S256x32.size a ≤ S256x512.size a
  inb_S256x4096_S256x256_0_1792 : ∀ a, (![0, 1792] : Fin 2 → Nat) a + S256x256.size a ≤ S256x4096.size a
  packedbf16_S256x4096_S256x256_0_1792 : (Rect.unit (s := S256x4096) ![0, 1792] S256x256.size inb_S256x4096_S256x256_0_1792).PackedRows (EltTy.packing .bf16)
  inb_S256x512_S256x32_0_256 : ∀ a, (![0, 256] : Fin 2 → Nat) a + S256x32.size a ≤ S256x512.size a
  inb_S256x4096_S256x256_0_2048 : ∀ a, (![0, 2048] : Fin 2 → Nat) a + S256x256.size a ≤ S256x4096.size a
  packedbf16_S256x4096_S256x256_0_2048 : (Rect.unit (s := S256x4096) ![0, 2048] S256x256.size inb_S256x4096_S256x256_0_2048).PackedRows (EltTy.packing .bf16)
  inb_S256x512_S256x32_0_288 : ∀ a, (![0, 288] : Fin 2 → Nat) a + S256x32.size a ≤ S256x512.size a
  inb_S256x4096_S256x256_0_2304 : ∀ a, (![0, 2304] : Fin 2 → Nat) a + S256x256.size a ≤ S256x4096.size a
  packedbf16_S256x4096_S256x256_0_2304 : (Rect.unit (s := S256x4096) ![0, 2304] S256x256.size inb_S256x4096_S256x256_0_2304).PackedRows (EltTy.packing .bf16)
  inb_S256x512_S256x32_0_320 : ∀ a, (![0, 320] : Fin 2 → Nat) a + S256x32.size a ≤ S256x512.size a
  inb_S256x4096_S256x256_0_2560 : ∀ a, (![0, 2560] : Fin 2 → Nat) a + S256x256.size a ≤ S256x4096.size a
  packedbf16_S256x4096_S256x256_0_2560 : (Rect.unit (s := S256x4096) ![0, 2560] S256x256.size inb_S256x4096_S256x256_0_2560).PackedRows (EltTy.packing .bf16)
  inb_S256x512_S256x32_0_352 : ∀ a, (![0, 352] : Fin 2 → Nat) a + S256x32.size a ≤ S256x512.size a
  inb_S256x4096_S256x256_0_2816 : ∀ a, (![0, 2816] : Fin 2 → Nat) a + S256x256.size a ≤ S256x4096.size a
  packedbf16_S256x4096_S256x256_0_2816 : (Rect.unit (s := S256x4096) ![0, 2816] S256x256.size inb_S256x4096_S256x256_0_2816).PackedRows (EltTy.packing .bf16)
  inb_S256x512_S256x32_0_384 : ∀ a, (![0, 384] : Fin 2 → Nat) a + S256x32.size a ≤ S256x512.size a
  inb_S256x4096_S256x256_0_3072 : ∀ a, (![0, 3072] : Fin 2 → Nat) a + S256x256.size a ≤ S256x4096.size a
  packedbf16_S256x4096_S256x256_0_3072 : (Rect.unit (s := S256x4096) ![0, 3072] S256x256.size inb_S256x4096_S256x256_0_3072).PackedRows (EltTy.packing .bf16)
  inb_S256x512_S256x32_0_416 : ∀ a, (![0, 416] : Fin 2 → Nat) a + S256x32.size a ≤ S256x512.size a
  inb_S256x4096_S256x256_0_3328 : ∀ a, (![0, 3328] : Fin 2 → Nat) a + S256x256.size a ≤ S256x4096.size a
  packedbf16_S256x4096_S256x256_0_3328 : (Rect.unit (s := S256x4096) ![0, 3328] S256x256.size inb_S256x4096_S256x256_0_3328).PackedRows (EltTy.packing .bf16)
  inb_S256x512_S256x32_0_448 : ∀ a, (![0, 448] : Fin 2 → Nat) a + S256x32.size a ≤ S256x512.size a
  inb_S256x4096_S256x256_0_3584 : ∀ a, (![0, 3584] : Fin 2 → Nat) a + S256x256.size a ≤ S256x4096.size a
  packedbf16_S256x4096_S256x256_0_3584 : (Rect.unit (s := S256x4096) ![0, 3584] S256x256.size inb_S256x4096_S256x256_0_3584).PackedRows (EltTy.packing .bf16)
  inb_S256x512_S256x32_0_480 : ∀ a, (![0, 480] : Fin 2 → Nat) a + S256x32.size a ≤ S256x512.size a
  inb_S256x4096_S256x256_0_3840 : ∀ a, (![0, 3840] : Fin 2 → Nat) a + S256x256.size a ≤ S256x4096.size a
  packedbf16_S256x4096_S256x256_0_3840 : (Rect.unit (s := S256x4096) ![0, 3840] S256x256.size inb_S256x4096_S256x256_0_3840).PackedRows (EltTy.packing .bf16)
  shapeCasts_S11008_S1x11008 : S11008.ShapeCasts S1x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S8192x11008_S4x2048x11008 : S8192x11008.ShapeCasts S4x2048x11008
  dot_S8192x256_S256x8_S8192x8_1_0_0_1_n_n_wf : DotDims.WF S8192x256 S256x8 S8192x8 [1] [0] [0] [1] [] []
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S11008x512.size a
  hwx0_0 : ∀ i : grid0.Coords, EltTy.bits .i32 = 32 ∨ (Rect.block (s := S11008x512) S256x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x512.size a
  hwx0_1 : ∀ i : grid0.Coords, EltTy.bits .i32 = 32 ∨ (Rect.block (s := S11008x512) S256x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256x1x8.size a ≤ S2x256x1x8.size a
  hwx0_2 : ∀ i : grid0.Coords, EltTy.bits .f32 = 32 ∨ (Rect.block (s := S2x256x1x8) S2x256x1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1x1x1.size a ≤ S11008x1x1x1.size a
  hwx0_3 : ∀ i : grid0.Coords, EltTy.bits .f32 = 32 ∨ (Rect.block (s := S11008x1x1x1) S256x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S11008x4096.size a
  hwx0_4 : ∀ i : grid0.Coords, EltTy.bits .bf16 = 32 ∨ (Rect.block (s := S11008x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x11008.size a
  hwx1_3 : ∀ i : grid1.Coords, EltTy.bits .f32 = 32 ∨ (Rect.block (s := S8192x11008) S2048x256.size (cc1_transform_3 i) (hinb1_3 i)).WholeWords (EltTy.packing .f32)

variable [Facts₀]

def dot_S8192x256_S256x8_S8192x8_1_0_0_1_n_n : DotDims S8192x256 S256x8 S8192x8 where
  lhsContracting := [1]
  rhsContracting := [0]
  lhsNonContracting := [0]
  rhsNonContracting := [1]
  lhsBatch := []
  rhsBatch := []
  wf := dot_S8192x256_S256x8_S8192x8_1_0_0_1_n_n_wf
def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256x1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S2 : Shape := ⟨1, ![2]⟩
abbrev S1x1x2 : Shape := ⟨3, ![1, 1, 2]⟩
abbrev S_ : Shape := ⟨0, ![]⟩
abbrev S11008x512x2x1 : Shape := ⟨4, ![11008, 512, 2, 1]⟩
abbrev S11008x512x2x2 : Shape := ⟨4, ![11008, 512, 2, 2]⟩
abbrev S11008x512x2x1x8 : Shape := ⟨5, ![11008, 512, 2, 1, 8]⟩
abbrev S11008x512x1x8 : Shape := ⟨4, ![11008, 512, 1, 8]⟩
abbrev S11008x1x512x8 : Shape := ⟨4, ![11008, 1, 512, 8]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x512x2, .i32⟩
  | .hbm, ⟨2, _⟩ => ⟨S2x256x1x8, .f32⟩
  | .hbm, ⟨3, _⟩ => ⟨S11008x1x1x1, .f32⟩
  | .hbm, ⟨4, _⟩ => ⟨S11008, .f32⟩
  | .hbm, ⟨5, _⟩ => ⟨S2, .i32⟩
  | .hbm, ⟨6, _⟩ => ⟨S1x1x2, .i32⟩
  | .hbm, ⟨7, _⟩ => ⟨S_, .i32⟩
  | .hbm, ⟨8, _⟩ => ⟨S1x1x2, .i32⟩
  | .hbm, ⟨9, _⟩ => ⟨S1x1x2, .i1⟩
  | .hbm, ⟨10, _⟩ => ⟨S_, .i32⟩
  | .hbm, ⟨11, _⟩ => ⟨S1x1x2, .i32⟩
  | .hbm, ⟨12, _⟩ => ⟨S1x1x2, .i32⟩
  | .hbm, ⟨13, _⟩ => ⟨S1x1x2, .i32⟩
  | .hbm, ⟨14, _⟩ => ⟨S_, .i32⟩
  | .hbm, ⟨15, _⟩ => ⟨S11008x512x2, .i32⟩
  | .hbm, ⟨16, _⟩ => ⟨S11008x512x2, .i1⟩
  | .hbm, ⟨17, _⟩ => ⟨S_, .i32⟩
  | .hbm, ⟨18, _⟩ => ⟨S11008x512x2, .i32⟩
  | .hbm, ⟨19, _⟩ => ⟨S11008x512x2, .i32⟩
  | .hbm, ⟨20, _⟩ => ⟨S11008x512x2, .i32⟩
  | .hbm, ⟨21, _⟩ => ⟨S11008x512x2, .i32⟩
  | .hbm, ⟨22, _⟩ => ⟨S11008x512x2x1, .i32⟩
  | .hbm, ⟨23, _⟩ => ⟨S11008x512x2x1, .i32⟩
  | .hbm, ⟨24, _⟩ => ⟨S11008x512x2x2, .i32⟩
  | .hbm, ⟨25, _⟩ => ⟨S11008x512x2x1x8, .f32⟩
  | .hbm, ⟨26, _⟩ => ⟨S_, .f32⟩
  | .hbm, ⟨27, _⟩ => ⟨S11008x512x1x8, .f32⟩
  | .hbm, ⟨28, _⟩ => ⟨S11008x512x1x8, .f32⟩
  | .hbm, ⟨29, _⟩ => ⟨S11008x512x1x8, .f32⟩
  | .hbm, ⟨30, _⟩ => ⟨S11008x1x512x8, .f32⟩
  | .hbm, ⟨31, _⟩ => ⟨S11008x4096, .f32⟩
  | .hbm, ⟨32, _⟩ => ⟨S4x2048x11008, .f32⟩
  | .hbm, ⟨33, _⟩ => ⟨S1x1x11008, .f32⟩
  | .hbm, ⟨34, _⟩ => ⟨S4x2048x11008, .f32⟩
  | .hbm, ⟨35, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S_S11008x512x2 : S_.BroadcastsInDim S11008x512x2 (![] : Fin 0 → Fin S11008x512x2.rank)
  bcast_S1x1x2_S11008x512x2_0_1_2 : S1x1x2.BroadcastsInDim S11008x512x2 (![0, 1, 2] : Fin 3 → Fin S11008x512x2.rank)
  bcast_S11008x512x2_S11008x512x2x1_0_1_2 : S11008x512x2.BroadcastsInDim S11008x512x2x1 (![0, 1, 2] : Fin 3 → Fin S11008x512x2x1.rank)
  concatenates_S11008x512x2x1_S11008x512x2x1_S11008x512x2x2_d3 : Shape.Concatenates [S11008x512x2x1, S11008x512x2x1] S11008x512x2x2 3
  reducesTo_S11008x512x2x1x8_S11008x512x1x8_d2 : S11008x512x2x1x8.ReducesTo [2] S11008x512x1x8
  h_S_ : 0 < S_.numel
  bcast_S11008x1x1x1_S11008x512x1x8_0_1_2_3 : S11008x1x1x1.BroadcastsInDim S11008x512x1x8 (![0, 1, 2, 3] : Fin 4 → Fin S11008x512x1x8.rank)
  transposes_S11008x512x1x8_S11008x1x512x8_0_2_1_3 : S11008x512x1x8.Transposes [0, 2, 1, 3] S11008x1x512x8
  shapeCasts_S11008x1x512x8_S11008x4096 : S11008x1x512x8.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S2x256x1x8_S11008x512x2x2_S11008x512x2x1x8_34_01_n_n_01_3_1118_wf : GatherDims.WF S2x256x1x8 S11008x512x2x2 S11008x512x2x1x8 [3, 4] [0, 1] [] [0, 1] [] 3 ![1, 1, 1, 8]
  dot_S4x2048x4096_S11008x4096_S4x2048x11008_2_1_01_0_n_n_wf : DotDims.WF S4x2048x4096 S11008x4096 S4x2048x11008 [2] [1] [0, 1] [0] [] []

variable [Facts₀]

def gather_S2x256x1x8_S11008x512x2x2_S11008x512x2x1x8_34_01_n_n_01_3_1118 : GatherDims S2x256x1x8 S11008x512x2x2 S11008x512x2x1x8 where
  offsetDims := [3, 4]
  collapsedSliceDims := [0, 1]
  operandBatchingDims := []
  startIndicesBatchingDims := []
  startIndexMap := [0, 1]
  indexVectorDim := 3
  sliceSizes := ![1, 1, 1, 8]
  wf := gather_S2x256x1x8_S11008x512x2x2_S11008x512x2x1x8_34_01_n_n_01_3_1118_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, index by index, on the extended reals.

  A weight matrix of 11008 rows and 4096 columns is stored as two streams of 8-bit codes: column j of row o belongs to
  group p = j / 8 at position g = j % 8 inside the group, and its weight is the sum of the two codebooks' entries the codes
  of (o, p) select, at position g, times row o's scale:
      W (o, j) = (cb (0, code (o, p, 0), 0, g) + cb (1, code (o, p, 1), 0, g)) * scale o.
  The layer's output is the input contracted with W along the 4096 columns, plus the bias of the output column:
      Y (b, s, o) = (sum over k of x (b, s, k) * W (o, k)) + bias o.
  A code is a 32-bit word; where it denotes a row of a 256-row codebook (its value as a natural number is below 256)
  that row is its value, and this file reads every code by that value.
-/
import Idealize.ShloMosaic.PureOps.Ideal
import Idealize.ShloMosaic.Lib.ValueIdx
import Mathlib.Algebra.BigOperators.Fin
import Mathlib.Algebra.BigOperators.Ring.Finset

noncomputable section

open scoped BigOperators

namespace Cert.Spec

open Idealize.ShloMosaic Idealize.ShloMosaic.ValueIdx

/-- The codebook row a code word denotes: its value as a natural number (kept below 256 by a remainder that does
    nothing to a code in range). -/
def rowOf (w : BitVec 32) : Fin 256 := ⟨w.toNat % 256, Nat.mod_lt _ (by decide)⟩

theorem rowOf_val_of_lt {w : BitVec 32} (h : w.toNat < 256) : (rowOf w).val = w.toNat := Nat.mod_eq_of_lt h

/-- The group a column belongs to. -/
def grp (j : Fin 4096) : Fin 512 := ⟨j.val / 8, by have := j.isLt; omega⟩
/-- A column's position inside its group. -/
def pos (j : Fin 4096) : Fin 8 := ⟨j.val % 8, Nat.mod_lt _ (by decide)⟩

/-- The dequantised weight at row `o`, column `j`. -/
def W (codes : IVec ⟨3, ![11008, 512, 2]⟩ 32) (cb : FVec Ideal ⟨4, ![2, 256, 1, 8]⟩ .f32)
    (sc : FVec Ideal ⟨4, ![11008, 1, 1, 1]⟩ .f32) (o : Fin 11008) (j : Fin 4096) : EReal :=
  (cb (ix4 (0 : Fin 2) (rowOf (codes (ix3 o (grp j) (0 : Fin 2)))) (0 : Fin 1) (pos j))
    + cb (ix4 (1 : Fin 2) (rowOf (codes (ix3 o (grp j) (1 : Fin 2)))) (0 : Fin 1) (pos j)))
  * sc (ix4 o (0 : Fin 1) (0 : Fin 1) (0 : Fin 1))

/-- The same weight from the two code streams taken apart (stream `m` holds code (o, p, m) at (o, p)). -/
def Wk (c0 c1 : IVec ⟨2, ![11008, 512]⟩ 32) (cb : FVec Ideal ⟨4, ![2, 256, 1, 8]⟩ .f32)
    (sc : FVec Ideal ⟨4, ![11008, 1, 1, 1]⟩ .f32) (o : Fin 11008) (j : Fin 4096) : EReal :=
  (cb (ix4 (0 : Fin 2) (rowOf (c0 (ix2 o (grp j)))) (0 : Fin 1) (pos j))
    + cb (ix4 (1 : Fin 2) (rowOf (c1 (ix2 o (grp j)))) (0 : Fin 1) (pos j)))
  * sc (ix4 o (0 : Fin 1) (0 : Fin 1) (0 : Fin 1))

theorem Wk_of_streams (codes : IVec ⟨3, ![11008, 512, 2]⟩ 32) (c0 c1 : IVec ⟨2, ![11008, 512]⟩ 32)
    (cb : FVec Ideal ⟨4, ![2, 256, 1, 8]⟩ .f32) (sc : FVec Ideal ⟨4, ![11008, 1, 1, 1]⟩ .f32)
    (h0 : ∀ (o : Fin 11008) (p : Fin 512), c0 (ix2 o p) = codes (ix3 o p (0 : Fin 2)))
    (h1 : ∀ (o : Fin 11008) (p : Fin 512), c1 (ix2 o p) = codes (ix3 o p (1 : Fin 2)))
    (o : Fin 11008) (j : Fin 4096) : Wk c0 c1 cb sc o j = W codes cb sc o j := by
  unfold Wk W
  rw [h0, h1]

/-- The layer's output at batch `b`, position `s`, output column `o`. -/
def Y (x : FVec Ideal ⟨3, ![4, 2048, 4096]⟩ .f32) (codes : IVec ⟨3, ![11008, 512, 2]⟩ 32)
    (cb : FVec Ideal ⟨4, ![2, 256, 1, 8]⟩ .f32) (sc : FVec Ideal ⟨4, ![11008, 1, 1, 1]⟩ .f32)
    (bias : FVec Ideal ⟨1, ![11008]⟩ .f32) (b : Fin 4) (s : Fin 2048) (o : Fin 11008) : EReal :=
  (∑ k : Fin 4096, x (ix3 b s k) * W codes cb sc o k) + bias (ix1 o)

/-- The whole output array. -/
def Yarr (x : FVec Ideal ⟨3, ![4, 2048, 4096]⟩ .f32) (codes : IVec ⟨3, ![11008, 512, 2]⟩ 32)
    (cb : FVec Ideal ⟨4, ![2, 256, 1, 8]⟩ .f32) (sc : FVec Ideal ⟨4, ![11008, 1, 1, 1]⟩ .f32)
    (bias : FVec Ideal ⟨1, ![11008]⟩ .f32) : FVec Ideal ⟨3, ![4, 2048, 11008]⟩ .f32 :=
  fun i => Y x codes cb sc bias (i 0) (i 1) (i 2)

/-- A sum against an indicator picks one entry: on the extended reals `1 * a = a` and `0 * a = 0` for every `a`,
    infinite ones included, so no finiteness is asked. -/
theorem sum_indicator_mul {n : Nat} (r : Fin n) (e : Fin n → EReal) (f : Fin n → EReal)
    (he : ∀ c, e c = if c = r then 1 else 0) : ∑ c : Fin n, e c * f c = f r := by
  rw [Finset.sum_eq_single r]
  · rw [he r, if_pos rfl, one_mul]
  · intro c _ hc
    rw [he c, if_neg hc, zero_mul]
  · intro h; exact absurd (Finset.mem_univ r) h

end Cert.Spec

end
-- ==== Proof.KChunk.lean ====
/-
  One chunk of the dequantising body, read at an index at the ideal values.

  The body builds a weight block of 256 rows 32 groups at a time. For a [256, 32] block of codes of one codebook it forms
  the one-hot matrix H of 8192 rows (row n for weight row n / 32 and group n % 32) and 256 columns, H (n, c) = 1 exactly
  when c is the code of (n / 32, n % 32), and multiplies it into the codebook's [256, 8] table: since 1 * a = a and
  0 * a = 0 on the extended reals, row n of the product is the table's row at that code — a gather written as a matmul.
  The two codebooks' products are added, re-laid [256, 32, 8], scaled by the row's scale and re-laid [256, 256]: entry
  (r, q) of a chunk is (cb0 (code0 (r, q / 8), q % 8) + cb1 (code1 (r, q / 8), q % 8)) * scale r.
-/
import proofs.«406902_j15985868276124_4_alg».proof.Proof.Gen.KernelIdeal.Skeleton
import proofs.«406902_j15985868276124_4_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.Chunk

open Cert.KernelIdeal Cert.KernelIdeal.Gen
open Idealize.ShloMosaic Idealize.ShloMosaic.TcCoe Idealize.ShloMosaic.ValueIdx Idealize.ShloMosaic.StableHlo

/-! ## The gather matmul's operand indices -/

theorem lhsG_0 (i : S8192x8.Idx) (q : dot_S8192x256_S256x8_S8192x8_1_0_0_1_n_n.contr.Idx) : (dot_S8192x256_S256x8_S8192x8_1_0_0_1_n_n.lhsIdx i q 0).val = (i 0).val := by
  unfold DotDims.lhsIdx
  rw [dif_neg (show ¬(0 : Fin S8192x256.rank) ∈ dot_S8192x256_S256x8_S8192x8_1_0_0_1_n_n.lhsBatch by decide), dif_pos (show (0 : Fin S8192x256.rank) ∈ dot_S8192x256_S256x8_S8192x8_1_0_0_1_n_n.lhsNonContracting by decide)]
  rfl
theorem lhsG_1 (i : S8192x8.Idx) (q : dot_S8192x256_S256x8_S8192x8_1_0_0_1_n_n.contr.Idx) : (dot_S8192x256_S256x8_S8192x8_1_0_0_1_n_n.lhsIdx i q 1).val = (q ⟨0, by decide⟩).val :=
  dot_S8192x256_S256x8_S8192x8_1_0_0_1_n_n.lhsIdx_val_of_single rfl i q
theorem rhsG_0 (i : S8192x8.Idx) (q : dot_S8192x256_S256x8_S8192x8_1_0_0_1_n_n.contr.Idx) : (dot_S8192x256_S256x8_S8192x8_1_0_0_1_n_n.rhsIdx i q 0).val = (q ⟨0, by decide⟩).val :=
  dot_S8192x256_S256x8_S8192x8_1_0_0_1_n_n.rhsIdx_val_of_single rfl i q
theorem rhsG_1 (i : S8192x8.Idx) (q : dot_S8192x256_S256x8_S8192x8_1_0_0_1_n_n.contr.Idx) : (dot_S8192x256_S256x8_S8192x8_1_0_0_1_n_n.rhsIdx i q 1).val = (i 1).val := by
  unfold DotDims.rhsIdx
  rw [dif_neg (show ¬(1 : Fin S256x8.rank) ∈ dot_S8192x256_S256x8_S8192x8_1_0_0_1_n_n.rhsBatch by decide), dif_pos (show (1 : Fin S256x8.rank) ∈ dot_S8192x256_S256x8_S8192x8_1_0_0_1_n_n.rhsNonContracting by decide)]
  rfl

/-! ## A one-hot row -/

/-- The word test "column `c` is this code", read as a number: 1 at the code's row, 0 elsewhere. -/
theorem hot_word (c : Fin 256) (w : BitVec 32) (hw : w.toNat < 256) :
    (FloatOps.sitofp (F := Ideal) .f32 ((IntOp.cmpi .eq (BitVec.ofNat 32 c.val) w).setWidth 32) : EReal)
      = if c = Spec.rowOf w then 1 else 0 := by
  have hc := c.isLt
  by_cases h : BitVec.ofNat 32 c.val = w
  · have hcw : c = Spec.rowOf w := Fin.ext (by
      rw [Spec.rowOf_val_of_lt hw, ← h, BitVec.toNat_ofNat]; omega)
    rw [Predicate.cmpi_eq_iff.mpr h, if_pos hcw]
    show (((1#1 : BitVec 1).setWidth 32).toInt : ℝ) = (1 : EReal)
    norm_num
  · have hcw : ¬ c = Spec.rowOf w := fun e => h (by
      have : c.val = w.toNat := by rw [e, Spec.rowOf_val_of_lt hw]
      rw [this, BitVec.ofNat_toNat, BitVec.setWidth_eq])
    rw [eq_zero_of_ne_one (fun e => h (Predicate.cmpi_eq_iff.mp e)), if_neg hcw]
    show (((0#1 : BitVec 1).setWidth 32).toInt : ℝ) = (0 : EReal)
    norm_num

/-- Row `n` of a chunk's one-hot matrix belongs to weight row `n / 32` and group `n % 32` of the chunk. -/
def rowR (n : Fin 8192) : Fin 256 := ⟨n.val / 32, by have := n.isLt; omega⟩
def rowP (n : Fin 8192) : Fin 32 := ⟨n.val % 32, Nat.mod_lt _ (by decide)⟩

/-- An entry of the one-hot matrix built from a [256, 32] block of codes: at row `n`, column `c`, it is 1 when `c` is the
    row the code of (n / 32, n % 32) denotes and 0 otherwise. (`io` is the column iota, kept abstract.) -/
theorem hot_at (io : IVec S256x32x256 32) (hio : ∀ i, io i = BitVec.ofNat 32 (i 2).val)
    (codes : Vec Ideal S256x32 .i32) (hc : ∀ i, (codes i : BitVec 32).toNat < 256) (n : Fin 8192) (c : Fin 256) :
    (shapeCast S8192x256 (truncf .bf16 (sitofp (F := Ideal) .f32 (extui 32 (cmpi .eq io
        (broadcastTo S256x32x256 (shapeCast S256x32x1 (shapeCast S256x32 codes shapeCasts_S256x32_S256x32)
          shapeCasts_S256x32_S256x32x1) broadcasts_S256x32x1_S256x32x256)) natLt_1_32)) bitsLt_bf16_f32)
        shapeCasts_S256x32x256_S8192x256 : FVec Ideal S8192x256 .bf16) (ix2 n c)
      = if c = Spec.rowOf (codes (ix2 (rowR n) (rowP n))) then 1 else 0 := by
  have hn := n.isLt
  rw [shapeCast_apply _ shapeCasts_S256x32x256_S8192x256 (ix2 n c) (ix3 (rowR n) (rowP n) c)
    (by rw [Shape.rowMajor_val_three, Shape.rowMajor_val_two]
        show (n.val / 32 * 32 + n.val % 32) * 256 + c.val = n.val * 256 + c.val
        omega)]
  rw [truncf_apply, sitofp_apply, extui_apply]
  show FloatOps.sitofp (F := Ideal) .f32 ((IntOp.cmpi .eq (io (ix3 (rowR n) (rowP n) c))
    (broadcastTo S256x32x256 (shapeCast S256x32x1 (shapeCast S256x32 codes shapeCasts_S256x32_S256x32)
      shapeCasts_S256x32_S256x32x1) broadcasts_S256x32x1_S256x32x256 (ix3 (rowR n) (rowP n) c))).setWidth 32) = _
  rw [hio, broadcastTo_apply _ broadcasts_S256x32x1_S256x32x256 (ix3 (rowR n) (rowP n) c) (ix3 (rowR n) (rowP n) (0 : Fin 1))
    (fun a => by
      match a with
      | ⟨0, _⟩ => show (rowR n).val = if (256 : Nat) = 1 then 0 else (rowR n).val; rw [if_neg (by decide)]
      | ⟨1, _⟩ => show (rowP n).val = if (32 : Nat) = 1 then 0 else (rowP n).val; rw [if_neg (by decide)]
      | ⟨2, _⟩ => show 0 = if (1 : Nat) = 1 then 0 else c.val; rw [if_pos rfl])]
  rw [shapeCast_apply _ shapeCasts_S256x32_S256x32x1 (ix3 (rowR n) (rowP n) (0 : Fin 1)) (ix2 (rowR n) (rowP n))
    (by rw [Shape.rowMajor_val_three, Shape.rowMajor_val_two]
        show (rowR n).val * 32 + (rowP n).val = ((rowR n).val * 32 + (rowP n).val) * 1 + 0
        omega), shapeCast_self]
  exact hot_word c _ (hc _)

/-- THE GATHER AS A MATMUL: the one-hot matrix of a [256, 32] block of codes times a [256, 8] codebook, into zero, reads at
    row `n`, position `g` the codebook's entry at the row the code of (n / 32, n % 32) denotes — for codes below 256. -/
theorem gather_matmul (io : IVec S256x32x256 32) (hio : ∀ i, io i = BitVec.ofNat 32 (i 2).val)
    (cb : FVec Ideal S256x8 .bf16) (codes : Vec Ideal S256x32 .i32) (hc : ∀ i, (codes i : BitVec 32).toNat < 256)
    (n : Fin 8192) (g : Fin 8) :
    k0_pay7 (F := Ideal) cb io codes (ix2 n g) = cb (ix2 (Spec.rowOf (codes (ix2 (rowR n) (rowP n)))) g) := by
  unfold k0_pay7
  simp only [matmul]
  rw [Ideal.matmul_constant_zero_apply, ← Equiv.sum_comp (contrEquiv1 dot_S8192x256_S256x8_S8192x8_1_0_0_1_n_n 256 rfl rfl).symm]
  refine (Finset.sum_congr rfl fun k _ => ?_).trans
    (Spec.sum_indicator_mul (Spec.rowOf (codes (ix2 (rowR n) (rowP n))))
      (fun k => if k = Spec.rowOf (codes (ix2 (rowR n) (rowP n))) then 1 else 0) (fun k => cb (ix2 k g)) (fun _ => rfl))
  have hk := contrEquiv1_symm_val dot_S8192x256_S256x8_S8192x8_1_0_0_1_n_n 256 rfl rfl k
  have el : dot_S8192x256_S256x8_S8192x8_1_0_0_1_n_n.lhsIdx (ix2 n g) ((contrEquiv1 dot_S8192x256_S256x8_S8192x8_1_0_0_1_n_n 256 rfl rfl).symm k) = ix2 n k := funext fun a => Fin.ext (by
    match a with
    | ⟨0, _⟩ => exact lhsG_0 _ _
    | ⟨1, _⟩ => exact (lhsG_1 _ _).trans hk)
  have er : dot_S8192x256_S256x8_S8192x8_1_0_0_1_n_n.rhsIdx (ix2 n g) ((contrEquiv1 dot_S8192x256_S256x8_S8192x8_1_0_0_1_n_n 256 rfl rfl).symm k) = ix2 k g := funext fun a => Fin.ext (by
    match a with
    | ⟨0, _⟩ => exact (rhsG_0 _ _).trans hk
    | ⟨1, _⟩ => exact rhsG_1 _ _)
  rw [el, er, hot_at io hio codes hc n k]

/-! ## One chunk of the dequantised block -/

/-- A chunk column's group inside the chunk, and its position inside the group. -/
def colP (q : Fin 256) : Fin 32 := ⟨q.val / 8, by have := q.isLt; omega⟩
def colG (q : Fin 256) : Fin 8 := ⟨q.val % 8, Nat.mod_lt _ (by decide)⟩

/-- The second gather matmul is the first one's text. -/
theorem pay8_eq (cb : FVec Ideal S256x8 .bf16) (io : IVec S256x32x256 32) (codes : Vec Ideal S256x32 .i32) :
    k0_pay8 (F := Ideal) cb io codes = k0_pay7 (F := Ideal) cb io codes := rfl

/-- A chunk is the two gather matmuls summed, laid out [256, 32, 8], scaled row by row, and laid out [256, 256]. -/
theorem pay6_eq (cb0 cb1 : FVec Ideal S256x8 .bf16) (sc : FVec Ideal S256x1x1 .f32) (io : IVec S256x32x256 32)
    (a b : Vec Ideal S256x32 .i32) :
    k0_pay6 (F := Ideal) cb0 cb1 sc io a b
      = truncf .bf16 (shapeCast S256x256 (mulf (shapeCast S256x32x8 (addf (k0_pay7 (F := Ideal) cb0 io a) (k0_pay7 (F := Ideal) cb1 io b))
          shapeCasts_S8192x8_S256x32x8) (broadcastTo S256x32x8 sc broadcasts_S256x1x1_S256x32x8)) shapeCasts_S256x32x8_S256x256)
          bitsLt_bf16_f32 := rfl

/-- A CHUNK AT (r, q): the two codebooks' entries the codes of (r, q / 8) select, at position q % 8, summed and scaled
    by row r's scale — for codes below 256. -/
theorem chunk_at (io : IVec S256x32x256 32) (hio : ∀ i, io i = BitVec.ofNat 32 (i 2).val)
    (cb0 cb1 : FVec Ideal S256x8 .bf16) (sc : FVec Ideal S256x1x1 .f32) (a b : Vec Ideal S256x32 .i32)
    (ha : ∀ i, (a i : BitVec 32).toNat < 256) (hb : ∀ i, (b i : BitVec 32).toNat < 256) (r q : Fin 256) :
    k0_pay6 (F := Ideal) cb0 cb1 sc io a b (ix2 r q)
      = (cb0 (ix2 (Spec.rowOf (a (ix2 r (colP q)))) (colG q)) + cb1 (ix2 (Spec.rowOf (b (ix2 r (colP q)))) (colG q)))
        * sc (ix3 r (0 : Fin 1) (0 : Fin 1)) := by
  have hr := r.isLt
  have hq := q.isLt
  let n : Fin 8192 := ⟨r.val * 32 + (colP q).val, by have := (colP q).isLt; omega⟩
  have hnR : rowR n = r := Fin.ext (by show (r.val * 32 + q.val / 8) / 32 = r.val; omega)
  have hnP : rowP n = colP q := Fin.ext (by show (r.val * 32 + q.val / 8) % 32 = q.val / 8; omega)
  rw [pay6_eq, truncf_apply,
    shapeCast_apply _ shapeCasts_S256x32x8_S256x256 (ix2 r q) (ix3 r (colP q) (colG q))
      (by rw [Shape.rowMajor_val_three, Shape.rowMajor_val_two]
          show (r.val * 32 + q.val / 8) * 8 + q.val % 8 = r.val * 256 + q.val
          omega),
    mulf_apply,
    shapeCast_apply _ shapeCasts_S8192x8_S256x32x8 (ix3 r (colP q) (colG q)) (ix2 n (colG q))
      (by rw [Shape.rowMajor_val_three, Shape.rowMajor_val_two]; rfl),
    addf_apply, gather_matmul io hio cb0 a ha, gather_matmul io hio cb1 b hb, hnR, hnP,
    broadcastTo_apply _ broadcasts_S256x1x1_S256x32x8 (ix3 r (colP q) (colG q)) (ix3 r (0 : Fin 1) (0 : Fin 1))
      (fun x => by
        match x with
        | ⟨0, _⟩ => show r.val = if (256 : Nat) = 1 then 0 else r.val; rw [if_neg (by decide)]
        | ⟨1, _⟩ => show 0 = if (1 : Nat) = 1 then 0 else (colP q).val; rw [if_pos rfl]
        | ⟨2, _⟩ => show 0 = if (1 : Nat) = 1 then 0 else (colG q).val; rw [if_pos rfl])]

/-! ## Every store's payload is the chunk

The body is printed in parts cut by length alone, so the sixteen chunks' payloads come in five spellings (whole; the first
chunk with the codebooks' and the scale's re-layouts inside; cut after the two matmuls; cut after the first one-hot
matrix; cut before the scaling). Each is the same function of the same values. -/

theorem pay5_eq (x2a x2b : Vec Ideal S1x256x1x8 .f32) (x3 : Vec Ideal S256x1x1x1 .f32) (a b : Vec Ideal S256x32 .i32) :
    k0_pay5 (F := Ideal) x2a x2b x3 a b
      = k0_pay6 (F := Ideal) (k0_pay2 (F := Ideal) x2a) (k0_pay3 (F := Ideal) x2b) (k0_pay4 (F := Ideal) x3) (iota .tc S256x32x256 32 [2] iota_S256x32x256_d2_w32) a b := rfl
theorem pay10_eq (cb0 cb1 : FVec Ideal S256x8 .bf16) (sc : FVec Ideal S256x1x1 .f32) (io : IVec S256x32x256 32) (a b : Vec Ideal S256x32 .i32) :
    k0_pay10 (F := Ideal) cb0 cb1 sc io a b = k0_pay6 (F := Ideal) cb0 cb1 sc io a b := rfl
theorem pay14_eq (cb0 cb1 : FVec Ideal S256x8 .bf16) (sc : FVec Ideal S256x1x1 .f32) (io : IVec S256x32x256 32) (a b : Vec Ideal S256x32 .i32) :
    k0_pay14 (F := Ideal) cb0 cb1 sc io a b = k0_pay6 (F := Ideal) cb0 cb1 sc io a b := rfl
theorem pay15_eq (cb0 cb1 : FVec Ideal S256x8 .bf16) (sc : FVec Ideal S256x1x1 .f32) (io : IVec S256x32x256 32) (a b : Vec Ideal S256x32 .i32) :
    k0_pay15 (F := Ideal) cb0 cb1 sc io a b = k0_pay6 (F := Ideal) cb0 cb1 sc io a b := rfl
theorem pay19_eq (cb0 cb1 : FVec Ideal S256x8 .bf16) (sc : FVec Ideal S256x1x1 .f32) (io : IVec S256x32x256 32) (a b : Vec Ideal S256x32 .i32) :
    k0_pay19 (F := Ideal) cb0 cb1 sc io a b = k0_pay6 (F := Ideal) cb0 cb1 sc io a b := rfl
theorem pay23_eq (cb0 cb1 : FVec Ideal S256x8 .bf16) (sc : FVec Ideal S256x1x1 .f32) (io : IVec S256x32x256 32) (a b : Vec Ideal S256x32 .i32) :
    k0_pay23 (F := Ideal) cb0 cb1 sc io a b = k0_pay6 (F := Ideal) cb0 cb1 sc io a b := rfl
theorem pay24_eq (cb0 cb1 : FVec Ideal S256x8 .bf16) (sc : FVec Ideal S256x1x1 .f32) (io : IVec S256x32x256 32) (a b : Vec Ideal S256x32 .i32) :
    k0_pay24 (F := Ideal) cb0 cb1 sc io a b = k0_pay6 (F := Ideal) cb0 cb1 sc io a b := rfl
theorem pay28_eq (cb0 cb1 : FVec Ideal S256x8 .bf16) (sc : FVec Ideal S256x1x1 .f32) (io : IVec S256x32x256 32) (a b : Vec Ideal S256x32 .i32) :
    k0_pay28 (F := Ideal) cb0 cb1 sc io a b = k0_pay6 (F := Ideal) cb0 cb1 sc io a b := rfl
theorem pay9_eq (cb0 cb1 : FVec Ideal S256x8 .bf16) (sc : FVec Ideal S256x1x1 .f32) (io : IVec S256x32x256 32) (a b : Vec Ideal S256x32 .i32) :
    k0_pay9 (F := Ideal) sc (k0_pay7 (F := Ideal) cb0 io a) (k0_pay8 (F := Ideal) cb1 io b) = k0_pay6 (F := Ideal) cb0 cb1 sc io a b := rfl
theorem pay18_eq (cb0 cb1 : FVec Ideal S256x8 .bf16) (sc : FVec Ideal S256x1x1 .f32) (io : IVec S256x32x256 32) (a b : Vec Ideal S256x32 .i32) :
    k0_pay18 (F := Ideal) sc (k0_pay16 (F := Ideal) cb0 io a) (k0_pay17 (F := Ideal) cb1 io b) = k0_pay6 (F := Ideal) cb0 cb1 sc io a b := rfl
theorem pay27_eq (cb0 cb1 : FVec Ideal S256x8 .bf16) (sc : FVec Ideal S256x1x1 .f32) (io : IVec S256x32x256 32) (a b : Vec Ideal S256x32 .i32) :
    k0_pay27 (F := Ideal) sc (k0_pay25 (F := Ideal) cb0 io a) (k0_pay26 (F := Ideal) cb1 io b) = k0_pay6 (F := Ideal) cb0 cb1 sc io a b := rfl
theorem pay13_eq (cb0 cb1 : FVec Ideal S256x8 .bf16) (sc : FVec Ideal S256x1x1 .f32) (io : IVec S256x32x256 32) (a b : Vec Ideal S256x32 .i32) :
    k0_pay13 (F := Ideal) cb0 cb1 sc io (k0_pay11 (F := Ideal) b) (k0_pay12 (F := Ideal) io a) = k0_pay6 (F := Ideal) cb0 cb1 sc io a b := rfl
theorem pay22_eq (cb0 cb1 : FVec Ideal S256x8 .bf16) (sc : FVec Ideal S256x1x1 .f32) (io : IVec S256x32x256 32) (a b : Vec Ideal S256x32 .i32) :
    k0_pay22 (F := Ideal) cb0 cb1 sc io (k0_pay20 (F := Ideal) b) (k0_pay21 (F := Ideal) io a) = k0_pay6 (F := Ideal) cb0 cb1 sc io a b := rfl
theorem pay31_eq (cb0 cb1 : FVec Ideal S256x8 .bf16) (sc : FVec Ideal S256x1x1 .f32) (io : IVec S256x32x256 32) (a b : Vec Ideal S256x32 .i32) :
    k0_pay31 (F := Ideal) cb0 cb1 sc io (k0_pay29 (F := Ideal) b) (k0_pay30 (F := Ideal) io a) = k0_pay6 (F := Ideal) cb0 cb1 sc io a b := rfl
theorem pay1_eq (cb0 cb1 : FVec Ideal S256x8 .bf16) (sc : FVec Ideal S256x1x1 .f32) (io : IVec S256x32x256 32) (a b : Vec Ideal S256x32 .i32) :
    k0_pay1 (F := Ideal) (k0_pay32 (F := Ideal) cb0 cb1 io a b) (k0_pay33 (F := Ideal) sc) = k0_pay6 (F := Ideal) cb0 cb1 sc io a b := rfl

/-! ## The codebooks and the scale as the body re-lays them -/

/-- The column iota reads its column. -/
theorem io_at (i : S256x32x256.Idx) : (iota .tc S256x32x256 32 [2] iota_S256x32x256_d2_w32) i = BitVec.ofNat 32 (i 2).val :=
  iota_single_apply .tc S256x32x256 32 2 iota_S256x32x256_d2_w32 i

/-- A codebook's [1, 256, 1, 8] slab viewed [256, 8]: row `k`, position `g`. -/
theorem book_at (v : Vec Ideal S1x256x1x8 .f32) (k : Fin 256) (g : Fin 8) :
    k0_pay2 (F := Ideal) v (ix2 k g) = v (ix4 (0 : Fin 1) k (0 : Fin 1) g) := by
  unfold k0_pay2
  rw [truncf_apply, shapeCast_apply _ shapeCasts_S1x256x1x8_S256x8 (ix2 k g) (ix4 (0 : Fin 1) k (0 : Fin 1) g)
    (by rw [Shape.rowMajor_val_four, Shape.rowMajor_val_two]
        show ((0 * 256 + k.val) * 1 + 0) * 8 + g.val = k.val * 8 + g.val
        omega)]
theorem pay3_eq (v : Vec Ideal S1x256x1x8 .f32) : k0_pay3 (F := Ideal) v = k0_pay2 (F := Ideal) v := rfl

/-- The scales' [256, 1, 1, 1] block viewed [256, 1, 1]: row `r`. -/
theorem scale_at (v : Vec Ideal S256x1x1x1 .f32) (r : Fin 256) :
    k0_pay4 (F := Ideal) v (ix3 r (0 : Fin 1) (0 : Fin 1)) = v (ix4 r (0 : Fin 1) (0 : Fin 1) (0 : Fin 1)) := by
  unfold k0_pay4
  rw [shapeCast_apply _ shapeCasts_S256x1x1x1_S256x1x1 (ix3 r (0 : Fin 1) (0 : Fin 1)) (ix4 r (0 : Fin 1) (0 : Fin 1) (0 : Fin 1))
    (by rw [Shape.rowMajor_val_four, Shape.rowMajor_val_three]
        show ((r.val * 1 + 0) * 1 + 0) * 1 + 0 = (r.val * 1 + 0) * 1 + 0
        omega)]

end Cert.KernelIdeal.Chunk

end
-- ==== Proof.KDequant.lean ====
/-
  The dequantising region: 43 grid points, point t computing rows [256 t, 256 t + 256) of the weight array from its
  rows of the two code streams and of the scales and from the whole codebooks. Inside a point the block is stored as
  sixteen chunks of 256 columns; each chunk is the weight formula at its columns, so the block is, and the blocks tile
  the array: after the region the array holds the weight formula at every (o, j).
-/
import proofs.«406902_j15985868276124_4_alg».proof.Proof.Gen.KernelIdeal.Frame
import proofs.«406902_j15985868276124_4_alg».proof.Proof.KChunk
import proofs.«406902_j15985868276124_4_alg».proof.Proof.Spec

set_option maxRecDepth 16384

noncomputable section

namespace Cert.KernelIdeal.Dequant

open Cert.KernelIdeal Cert.KernelIdeal.Gen Cert.KernelIdeal.Chunk
open Idealize.ShloMosaic Idealize.ShloMosaic.TcCoe Idealize.ShloMosaic.ValueIdx
open Idealize.ShloMosaic.Pipeline (Dat Cfg Window)

/-! ## A block of 256 weight rows as one function of the point's input blocks -/

/-- Entry (r, j) of the block a grid point computes, from its blocks of the two code streams, the codebooks and its
    rows' scales: the weight formula with the block's own row numbering. -/
def blkAt (x0 x1 : Vec Ideal S256x512 .i32) (x2 : Vec Ideal S2x256x1x8 .f32) (x3 : Vec Ideal S256x1x1x1 .f32)
    (r : Fin 256) (j : Fin 4096) : EReal :=
  (x2 (ix4 (0 : Fin 2) (Spec.rowOf (x0 (ix2 r (Spec.grp j)))) (0 : Fin 1) (Spec.pos j))
    + x2 (ix4 (1 : Fin 2) (Spec.rowOf (x1 (ix2 r (Spec.grp j)))) (0 : Fin 1) (Spec.pos j)))
  * x3 (ix4 r (0 : Fin 1) (0 : Fin 1) (0 : Fin 1))

def blk (x0 x1 : Vec Ideal S256x512 .i32) (x2 : Vec Ideal S2x256x1x8 .f32) (x3 : Vec Ideal S256x1x1x1 .f32) :
    Vec Ideal S256x4096 .bf16 := fun y => blkAt x0 x1 x2 x3 (y 0) (y 1)

/-- The chunk stored at columns [8 s, 8 s + 256) — computed from the codes' columns [s, s + 32) — is the block's function
    there. (`s' = 8 s` is the store's column offset.) -/
theorem piece_ok (x0 x1 : Vec Ideal S256x512 .i32) (x2 : Vec Ideal S2x256x1x8 .f32) (x3 : Vec Ideal S256x1x1x1 .f32)
    (h0 : ∀ i, (x0 i : BitVec 32).toNat < 256) (h1 : ∀ i, (x1 i : BitVec 32).toNat < 256)
    (s s' : Nat) (hs : s' = 8 * s)
    (inbA : ∀ a, (![0, s] : Fin 2 → Nat) a + S256x32.size a ≤ S256x512.size a)
    (inbW : ∀ a, (![0, s'] : Fin 2 → Nat) a + S256x256.size a ≤ S256x4096.size a) (x : S256x256.Idx) :
    k0_pay6 (F := Ideal) (k0_pay2 (F := Ideal) (View.ld x2 r0_0)) (k0_pay3 (F := Ideal) (View.ld x2 r0_1))
        (k0_pay4 (F := Ideal) (View.ld x3 r0_2)) (iota .tc S256x32x256 32 [2] iota_S256x32x256_d2_w32)
        (View.ld x0 (Rect.unit (s := S256x512) ![0, s] S256x32.size inbA))
        (View.ld x1 (Rect.unit (s := S256x512) ![0, s] S256x32.size inbA)) x
      = blk x0 x1 x2 x3 ((Rect.unit (s := S256x4096) ![0, s'] S256x256.size inbW).emb x) := by
  obtain ⟨r, q, rfl⟩ : ∃ (r : Fin 256) (q : Fin 256), x = ix2 r q := ⟨x 0, x 1, eq_ix2 x⟩
  have hq := q.isLt
  have hA : s + 32 ≤ 512 := inbA 1
  have hW : s' + 256 ≤ 4096 := inbW 1
  rw [chunk_at (iota .tc S256x32x256 32 [2] iota_S256x32x256_d2_w32) io_at (k0_pay2 (F := Ideal) (View.ld x2 r0_0))
      (k0_pay3 (F := Ideal) (View.ld x2 r0_1)) (k0_pay4 (F := Ideal) (View.ld x3 r0_2))
      (View.ld x0 (Rect.unit (s := S256x512) ![0, s] S256x32.size inbA))
      (View.ld x1 (Rect.unit (s := S256x512) ![0, s] S256x32.size inbA)) (fun i => h0 _) (fun i => h1 _) r q,
    pay3_eq, book_at, book_at, scale_at]
  -- the store's rectangle places (r, q) at (r, s' + q); the loads' rectangle places (r, p) at (r, s + p)
  let j : Fin 4096 := ⟨s' + q.val, by omega⟩
  have ej : (Rect.unit (s := S256x4096) ![0, s'] S256x256.size inbW).emb (ix2 r q) = ix2 r j := by
    funext a; refine Fin.ext ?_
    match a with
    | ⟨0, _⟩ => show 0 + 1 * r.val = r.val; omega
    | ⟨1, _⟩ => show s' + 1 * q.val = s' + q.val; omega
  have ep : (Rect.unit (s := S256x512) ![0, s] S256x32.size inbA).emb (ix2 r (colP q)) = ix2 r (Spec.grp j) := by
    funext a; refine Fin.ext ?_
    match a with
    | ⟨0, _⟩ => show 0 + 1 * r.val = r.val; omega
    | ⟨1, _⟩ => show s + 1 * (q.val / 8) = (s' + q.val) / 8; omega
  have eg : colG q = Spec.pos j := Fin.ext (by show q.val % 8 = (s' + q.val) % 8; omega)
  rw [ej]
  show (View.ld x2 r0_0 _ + View.ld x2 r0_1 _) * View.ld x3 r0_2 _ = blkAt x0 x1 x2 x3 r j
  unfold blkAt
  show (x2 (r0_0.emb _) + x2 (r0_1.emb _)) * x3 (r0_2.emb _) = _
  have e0 : ∀ (k : Fin 256) (g : Fin 8), r0_0.emb (ix4 (0 : Fin 1) k (0 : Fin 1) g) = ix4 (0 : Fin 2) k (0 : Fin 1) g := fun k g => by
    funext a; refine Fin.ext ?_
    match a with
    | ⟨0, _⟩ => rfl
    | ⟨1, _⟩ => show 0 + 1 * k.val = k.val; omega
    | ⟨2, _⟩ => rfl
    | ⟨3, _⟩ => show 0 + 1 * g.val = g.val; omega
  have e1 : ∀ (k : Fin 256) (g : Fin 8), r0_1.emb (ix4 (0 : Fin 1) k (0 : Fin 1) g) = ix4 (1 : Fin 2) k (0 : Fin 1) g := fun k g => by
    funext a; refine Fin.ext ?_
    match a with
    | ⟨0, _⟩ => rfl
    | ⟨1, _⟩ => show 0 + 1 * k.val = k.val; omega
    | ⟨2, _⟩ => rfl
    | ⟨3, _⟩ => show 0 + 1 * g.val = g.val; omega
  have e2 : r0_2.emb (ix4 r (0 : Fin 1) (0 : Fin 1) (0 : Fin 1)) = ix4 r (0 : Fin 1) (0 : Fin 1) (0 : Fin 1) := by
    funext a; refine Fin.ext ?_
    match a with
    | ⟨0, _⟩ => show 0 + 1 * r.val = r.val; omega
    | ⟨1, _⟩ => rfl
    | ⟨2, _⟩ => rfl
    | ⟨3, _⟩ => rfl
  rw [e0, e1, e2, eg]
  show (x2 (ix4 (0 : Fin 2) (Spec.rowOf (x0 ((Rect.unit (s := S256x512) ![0, s] S256x32.size inbA).emb (ix2 r (colP q))))) (0 : Fin 1) (Spec.pos j))
    + x2 (ix4 (1 : Fin 2) (Spec.rowOf (x1 ((Rect.unit (s := S256x512) ![0, s] S256x32.size inbA).emb (ix2 r (colP q))))) (0 : Fin 1) (Spec.pos j))) * _ = _
  rw [ep]

/-- WHAT THE BODY LEAVES in the output window's buffer: the block's function, for codes below 256. The sixteen stores'
    rectangles tile the buffer (the generated cover), and each store's payload is the chunk function at its columns. -/
theorem out0_4_eq (x0 x1 : Vec Ideal S256x512 .i32) (x2 : Vec Ideal S2x256x1x8 .f32) (x3 : Vec Ideal S256x1x1x1 .f32)
    (h0 : ∀ i, (x0 i : BitVec 32).toNat < 256) (h1 : ∀ i, (x1 i : BitVec 32).toNat < 256) :
    out0_4 (F := Ideal) x0 x1 x2 x3 = blk x0 x1 x2 x3 := by
  funext y
  unfold out0_4
  rw [pay1_eq, pay31_eq, pay27_eq, pay22_eq, pay18_eq, pay13_eq, pay9_eq, pay5_eq, pay28_eq, pay24_eq, pay23_eq, pay19_eq,
    pay15_eq, pay14_eq, pay10_eq]
  refine View.canon_apply_of_pieces (blk x0 x1 x2 x3) _ ?_ y (cover0_4 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  all_goals (dsimp only; exact piece_ok x0 x1 x2 x3 h0 h1 _ _ (by rfl) _ _ x)

/-! ## The region: what a point writes back, and the whole weight array -/

section Region
variable (V : (c : Dev nD) → (b : Ref sig .tc) → Buf (Elt Ideal) ((c : Thread nD τ).loc b))

/-- The arrays the region finds, each at its literal type: the two code streams, the codebooks, the scales. -/
abbrev A0 (c : Dev nD) : Vec Ideal S11008x512 .i32 := V c main_v1
abbrev A1 (c : Dev nD) : Vec Ideal S11008x512 .i32 := V c main_v3
abbrev A2 (c : Dev nD) : Vec Ideal S2x256x1x8 .f32 := V c main_arg2
abbrev A3 (c : Dev nD) : Vec Ideal S11008x1x1x1 .f32 := V c main_arg3
/-- A point's blocks of them, each at its literal type. -/
abbrev B0 (c : Dev nD) (t : Fin cfg0.N) : Vec Ideal S256x512 .i32 := iblk0 V c 0 t
abbrev B1 (c : Dev nD) (t : Fin cfg0.N) : Vec Ideal S256x512 .i32 := iblk0 V c 1 t
abbrev B2 (c : Dev nD) (t : Fin cfg0.N) : Vec Ideal S2x256x1x8 .f32 := iblk0 V c 2 t
abbrev B3 (c : Dev nD) (t : Fin cfg0.N) : Vec Ideal S256x1x1x1 .f32 := iblk0 V c 3 t

/-- The weight array from the arrays the region finds. -/
def Warr (c : Dev nD) : Vec Ideal S11008x4096 .bf16 :=
  fun i => Spec.Wk (A0 V c) (A1 V c) (A2 V c) (A3 V c) (i 0) (i 1)

/-- The printed index maps over the 43 grid points: point `t` takes rows [256 t, 256 t + 256) of the code streams, the
    scales and the output, and the whole codebooks. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_4.index t (0 : Fin 2) = t.val ∧ win0_4.index t (1 : Fin 2) = 0 :=
  (by decide +kernel : ∀ t : Fin grid0.N, _)

/-- Each input block read where the output block's rows are: row `r` of point `t`'s block is row `256 t + r`. -/
theorem rd0 (c : Dev nD) (t : Fin cfg0.N) (r : Fin 256) (p : Fin 512) (o : Fin 11008) (ho : o.val = t.val * 256 + r.val) :
    B0 V c t (ix2 r p) = A0 V c (ix2 o p) := by
  obtain ⟨a0, a1, -⟩ := idx_facts0 t
  show A0 V c (((cfg0.win 0).blk t).view.emb (ix2 r p)) = _
  refine congrArg (A0 V c) (funext fun a => Fin.ext ?_)
  match a with
  | ⟨0, _⟩ => show win0_0.index t (0 : Fin 2) * 256 + 1 * r.val = o.val; omega
  | ⟨1, _⟩ => show win0_0.index t (1 : Fin 2) * 512 + 1 * p.val = p.val; omega
theorem rd1 (c : Dev nD) (t : Fin cfg0.N) (r : Fin 256) (p : Fin 512) (o : Fin 11008) (ho : o.val = t.val * 256 + r.val) :
    B1 V c t (ix2 r p) = A1 V c (ix2 o p) := by
  obtain ⟨-, -, b0, b1, -⟩ := idx_facts0 t
  show A1 V c (((cfg0.win 1).blk t).view.emb (ix2 r p)) = _
  refine congrArg (A1 V c) (funext fun a => Fin.ext ?_)
  match a with
  | ⟨0, _⟩ => show win0_1.index t (0 : Fin 2) * 256 + 1 * r.val = o.val; omega
  | ⟨1, _⟩ => show win0_1.index t (1 : Fin 2) * 512 + 1 * p.val = p.val; omega
theorem rd2 (c : Dev nD) (t : Fin cfg0.N) (m : Fin 2) (k : Fin 256) (g : Fin 8) :
    B2 V c t (ix4 m k (0 : Fin 1) g) = A2 V c (ix4 m k (0 : Fin 1) g) := by
  obtain ⟨-, -, -, -, c0, c1, c2, c3, -⟩ := idx_facts0 t
  show A2 V c (((cfg0.win 2).blk t).view.emb (ix4 m k (0 : Fin 1) g)) = _
  refine congrArg (A2 V c) (funext fun a => Fin.ext ?_)
  match a with
  | ⟨0, _⟩ => show win0_2.index t (0 : Fin 4) * 2 + 1 * m.val = m.val; omega
  | ⟨1, _⟩ => show win0_2.index t (1 : Fin 4) * 256 + 1 * k.val = k.val; omega
  | ⟨2, _⟩ => show win0_2.index t (2 : Fin 4) * 1 + 1 * 0 = 0; omega
  | ⟨3, _⟩ => show win0_2.index t (3 : Fin 4) * 8 + 1 * g.val = g.val; omega
theorem rd3 (c : Dev nD) (t : Fin cfg0.N) (r : Fin 256) (o : Fin 11008) (ho : o.val = t.val * 256 + r.val) :
    B3 V c t (ix4 r (0 : Fin 1) (0 : Fin 1) (0 : Fin 1)) = A3 V c (ix4 o (0 : Fin 1) (0 : Fin 1) (0 : Fin 1)) := by
  obtain ⟨-, -, -, -, -, -, -, -, d0, d1, d2, d3, -⟩ := idx_facts0 t
  show A3 V c (((cfg0.win 3).blk t).view.emb (ix4 r (0 : Fin 1) (0 : Fin 1) (0 : Fin 1))) = _
  refine congrArg (A3 V c) (funext fun a => Fin.ext ?_)
  match a with
  | ⟨0, _⟩ => show win0_3.index t (0 : Fin 4) * 256 + 1 * r.val = o.val; omega
  | ⟨1, _⟩ => show win0_3.index t (1 : Fin 4) * 1 + 1 * 0 = 0; omega
  | ⟨2, _⟩ => show win0_3.index t (2 : Fin 4) * 1 + 1 * 0 = 0; omega
  | ⟨3, _⟩ => show win0_3.index t (3 : Fin 4) * 1 + 1 * 0 = 0; omega

/-- WHAT POINT `t` WRITES BACK is block `t` of the weight array, for codes below 256. -/
theorem flushed0 (c : Dev nD) (h0 : ∀ i, (A0 V c i : BitVec 32).toNat < 256) (h1 : ∀ i, (A1 V c i : BitVec 32).toNat < 256)
    (t : Fin cfg0.N) :
    (dat0 V c).flushed 4 t = ((cfg0.win 4).blk t).view.read (Elt Ideal) (Warr V c) := by
  show (cfg0.win 4).cut (grid0.coords t) ((dat0 V c).after 4 t) = _
  rw [after0_4]
  show out0_4 (F := Ideal) (B0 V c t) (B1 V c t) (B2 V c t) (B3 V c t) = _
  rw [out0_4_eq (B0 V c t) (B1 V c t) (B2 V c t) (B3 V c t) (fun i => h0 _) (fun i => h1 _)]
  obtain ⟨-, -, -, -, -, -, -, -, -, -, -, -, e0, e1⟩ := idx_facts0 t
  have ht : t.val < 43 := t.isLt
  funext y
  obtain ⟨r, j, rfl⟩ : ∃ (r : Fin 256) (j : Fin 4096), y = ix2 r j := ⟨y 0, y 1, eq_ix2 y⟩
  have hr := r.isLt
  have hj := j.isLt
  let o : Fin 11008 := ⟨t.val * 256 + r.val, by omega⟩
  have eo : ((cfg0.win 4).blk t).view.emb (ix2 r j) = ix2 o j := by
    funext a; apply Fin.ext
    match a with
    | ⟨0, _⟩ => show win0_4.index t (0 : Fin 2) * 256 + 1 * r.val = t.val * 256 + r.val; omega
    | ⟨1, _⟩ => show win0_4.index t (1 : Fin 2) * 4096 + 1 * j.val = j.val; omega
  show blkAt (B0 V c t) (B1 V c t) (B2 V c t) (B3 V c t) r j = Warr V c (((cfg0.win 4).blk t).view.emb (ix2 r j))
  rw [eo]
  show _ = Spec.Wk (A0 V c) (A1 V c) (A2 V c) (A3 V c) o j
  unfold blkAt Spec.Wk
  rw [rd2, rd2, rd0 V c t r _ o rfl, rd1 V c t r _ o rfl, rd3 V c t r o rfl]

/-- An index of the weight array is in point `t`'s block iff each coordinate is in the block's range on its axis. -/
theorem mem_blk0 (t : Fin cfg0.N) (i : S11008x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v6).slice (win0_4.rect t)).set ↔ _
  rw [View.set_slice_whole, Rect.mem_set_unit]
  exact Iff.rfl

/-- Every row of the weight array is in some point's block: row `o` in point `o / 256`'s. -/
theorem cover0 (i : S11008x4096.Idx) : ∃ t : Fin cfg0.N, (cfg0.win 4).flush t = true ∧ i ∈ ((cfg0.win 4).blk t).view.set := by
  have hi0 : (i 0).val < 11008 := (i 0).isLt
  have hi1 : (i 1).val < 4096 := (i 1).isLt
  let t : Fin cfg0.N := ⟨(i 0).val / 256, by show (i 0).val / 256 < 43; omega⟩
  obtain ⟨-, -, -, -, -, -, -, -, -, -, -, -, e0, e1⟩ := idx_facts0 t
  have tv : t.val = (i 0).val / 256 := rfl
  refine ⟨t, flush0_4 t, ?_⟩
  rw [mem_blk0]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE WEIGHT ARRAY after the region, for codes below 256. -/
theorem final0 (c : Dev nD) (h0 : ∀ i, (A0 V c i : BitVec 32).toNat < 256) (h1 : ∀ i, (A1 V c i : BitVec 32).toNat < 256) :
    (dat0 V c).arrAt 4 cfg0.N = Warr V c :=
  (dat0 V c).arrAt_eq_of_cover 4 (Warr V c) (fun t _ => flushed0 V c h0 h1 t) cover0

end Region

end Cert.KernelIdeal.Dequant

end
-- ==== Proof.KMat.lean ====
/-
  The matmul body, read at an index at the ideal values: a [2048, 4096] block of the input against a [256, 4096] block of
  the weight, contracted along the 4096 columns of both, plus the bias row; entry (r, c) is
  (sum over k of x (r, k) * w (c, k)) + bias c.
-/
import proofs.«406902_j15985868276124_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Mat

open Cert.KernelIdeal Cert.KernelIdeal.Gen
open Idealize.ShloMosaic Idealize.ShloMosaic.TcCoe Idealize.ShloMosaic.ValueIdx

/-! ## The contraction's operand indices -/

theorem lhsM_0 (i : S2048x256.Idx) (q : dot_S2048x4096_S256x4096_S2048x256_1_1_0_0_n_n.contr.Idx) : (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem lhsM_1 (i : S2048x256.Idx) (q : dot_S2048x4096_S256x4096_S2048x256_1_1_0_0_n_n.contr.Idx) : (dot_S2048x4096_S256x4096_S2048x256_1_1_0_0_n_n.lhsIdx i q 1).val = (q ⟨0, by decide⟩).val :=
  dot_S2048x4096_S256x4096_S2048x256_1_1_0_0_n_n.lhsIdx_val_of_single rfl i q
theorem rhsM_0 (i : S2048x256.Idx) (q : dot_S2048x4096_S256x4096_S2048x256_1_1_0_0_n_n.contr.Idx) : (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem rhsM_1 (i : S2048x256.Idx) (q : dot_S2048x4096_S256x4096_S2048x256_1_1_0_0_n_n.contr.Idx) : (dot_S2048x4096_S256x4096_S2048x256_1_1_0_0_n_n.rhsIdx i q 1).val = (q ⟨0, by decide⟩).val :=
  dot_S2048x4096_S256x4096_S2048x256_1_1_0_0_n_n.rhsIdx_val_of_single rfl i q

/-- THE BODY AT (r, c): row `r` of the input block against row `c` of the weight block, plus the bias at `c`. -/
theorem mat_at (v0 : Vec Ideal S2048x4096 .bf16) (v2 : Vec Ideal S256x4096 .bf16) (v5 : Vec Ideal S1x256 .f32)
    (r : Fin 2048) (c : Fin 256) :
    k1_pay1 (F := Ideal) v0 v2 v5 (ix2 r c)
      = (∑ k : Fin 4096, v0 (ix2 r k) * v2 (ix2 c k)) + v5 (ix2 (0 : Fin 1) c) := by
  unfold k1_pay1
  simp only [matmul]
  rw [addf_apply, Ideal.matmul_constant_zero_apply, shapeCast_self, shapeCast_self, shapeCast_self,
    broadcastTo_apply _ broadcasts_S1x256_S2048x256 (ix2 r c) (ix2 (0 : Fin 1) c)
      (fun a => by
        match a with
        | ⟨0, _⟩ => show 0 = if (1 : Nat) = 1 then 0 else r.val; rw [if_pos rfl]
        | ⟨1, _⟩ => show c.val = if (256 : Nat) = 1 then 0 else c.val; rw [if_neg (by decide)]),
    ← Equiv.sum_comp (contrEquiv1 dot_S2048x4096_S256x4096_S2048x256_1_1_0_0_n_n 4096 rfl rfl).symm]
  refine congrArg (· + _) (Finset.sum_congr rfl fun k _ => ?_)
  have hk := contrEquiv1_symm_val dot_S2048x4096_S256x4096_S2048x256_1_1_0_0_n_n 4096 rfl rfl k
  have el : dot_S2048x4096_S256x4096_S2048x256_1_1_0_0_n_n.lhsIdx (ix2 r c) ((contrEquiv1 dot_S2048x4096_S256x4096_S2048x256_1_1_0_0_n_n 4096 rfl rfl).symm k) = ix2 r k := funext fun a => Fin.ext (by
    match a with
    | ⟨0, _⟩ => exact lhsM_0 _ _
    | ⟨1, _⟩ => exact (lhsM_1 _ _).trans hk)
  have er : dot_S2048x4096_S256x4096_S2048x256_1_1_0_0_n_n.rhsIdx (ix2 r c) ((contrEquiv1 dot_S2048x4096_S256x4096_S2048x256_1_1_0_0_n_n 4096 rfl rfl).symm k) = ix2 c k := funext fun a => Fin.ext (by
    match a with
    | ⟨0, _⟩ => exact rhsM_0 _ _
    | ⟨1, _⟩ => exact (rhsM_1 _ _).trans hk)
  rw [el, er]

end Cert.KernelIdeal.Mat

end
-- ==== Proof.KMatRegion.lean ====
/-
  The matmul region: a grid of 4 x 43 points, point (i, j) computing rows [2048 i, 2048 i + 2048) and columns
  [256 j, 256 j + 256) of the [8192, 11008] output from rows [2048 i, ..) of the flattened input, rows [256 j, ..) of the
  weight array and columns [256 j, ..) of the bias row. Each point stores its whole block once; the blocks tile the
  output, which therefore holds (sum over k of x (n, k) * w (o, k)) + bias o at every (n, o).
-/
import proofs.«406902_j15985868276124_4_alg».proof.Proof.Gen.KernelIdeal.Frame
import proofs.«406902_j15985868276124_4_alg».proof.Proof.KMat

set_option maxRecDepth 16384

noncomputable section

namespace Cert.KernelIdeal.MatRegion

open Cert.KernelIdeal Cert.KernelIdeal.Gen Cert.KernelIdeal.Mat
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- Entry (n, o) of the output from the flattened input, the weight array and the bias row. -/
def outAt (xb : Vec Ideal S8192x4096 .bf16) (wb : Vec Ideal S11008x4096 .bf16) (b2 : Vec Ideal S1x11008 .f32)
    (n : Fin 8192) (o : Fin 11008) : EReal :=
  (∑ k : Fin 4096, xb (ix2 n k) * wb (ix2 o k)) + b2 (ix2 (0 : Fin 1) o)

section Region
variable (V : (c : Dev nD) → (b : Ref sig .tc) → Buf (Elt Ideal) ((c : Thread nD τ).loc b))

/-- The arrays the region finds, each at its literal type: the flattened input, the weight array, the bias row. -/
abbrev X5 (c : Dev nD) : Vec Ideal S8192x4096 .bf16 := V c main_v5
abbrev X6 (c : Dev nD) : Vec Ideal S11008x4096 .bf16 := V c main_v6
abbrev X7 (c : Dev nD) : Vec Ideal S1x11008 .f32 := V c main_v7
/-- A point's blocks of them, each at its literal type. -/
abbrev Bx (c : Dev nD) (t : Fin cfg1.N) : Vec Ideal S2048x4096 .bf16 := iblk1 V c 0 t
abbrev Bw (c : Dev nD) (t : Fin cfg1.N) : Vec Ideal S256x4096 .bf16 := iblk1 V c 1 t
abbrev Bb (c : Dev nD) (t : Fin cfg1.N) : Vec Ideal S1x256 .f32 := iblk1 V c 2 t

/-- The output array from the arrays the region finds. -/
def Oarr (c : Dev nD) : Vec Ideal S8192x11008 .f32 :=
  fun i => outAt (X5 V c) (X6 V c) (X7 V c) (i 0) (i 1)

/-- The printed index maps over the 172 grid points: the input's row block and the weight's and bias's column block are
    the output block's; the output's block indices stay in their ranges. -/
theorem idx_facts1 : ∀ t : Fin cfg1.N, win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 3 ∧ win1_3.index t (1 : Fin 2) ≤ 42 :=
  (by decide +kernel : ∀ t : Fin grid1.N, _)

/-- Every output block is SOME point's. -/
theorem idx_onto1 : ∀ (q0 : Fin 4) (q1 : Fin 43), ∃ t : Fin cfg1.N, win1_3.index t = ![q0.val, q1.val] :=
  (by decide +kernel : ∀ (q0 : Fin 4) (q1 : Fin 43), ∃ t : Fin grid1.N, win1_3.index t = ![q0.val, q1.val])

/-- WHAT POINT `t` WRITES BACK is block `t` of the output array. -/
theorem flushed1 (c : Dev nD) (t : Fin cfg1.N) :
    (dat1 V c).flushed 3 t = ((cfg1.win 3).blk t).view.read (Elt Ideal) (Oarr V c) := by
  show (cfg1.win 3).cut (grid1.coords t) ((dat1 V c).after 3 t) = _
  rw [after1_3]
  unfold out1_3
  rw [View.canon_unit_zero hz]
  simp only [View.ld_unit_zero (S := S2048x4096) hz, View.ld_unit_zero (S := S256x4096) hz, View.ld_unit_zero (S := S1x256) hz]
  obtain ⟨a0, a1, b0, b1, c0, c1, d0, d1⟩ := idx_facts1 t
  funext y
  obtain ⟨r, q, rfl⟩ : ∃ (r : Fin 2048) (q : Fin 256), y = ix2 r q := ⟨y 0, y 1, eq_ix2 y⟩
  have hr := r.isLt
  have hq := q.isLt
  let n : Fin 8192 := ⟨win1_3.index t (0 : Fin 2) * 2048 + r.val, by omega⟩
  let o : Fin 11008 := ⟨win1_3.index t (1 : Fin 2) * 256 + q.val, by omega⟩
  have eo : ((cfg1.win 3).blk t).view.emb (ix2 r q) = ix2 n o := by
    funext a; apply Fin.ext
    match a with
    | ⟨0, _⟩ => show win1_3.index t (0 : Fin 2) * 2048 + 1 * r.val = win1_3.index t (0 : Fin 2) * 2048 + r.val; omega
    | ⟨1, _⟩ => show win1_3.index t (1 : Fin 2) * 256 + 1 * q.val = win1_3.index t (1 : Fin 2) * 256 + q.val; omega
  have ex : ∀ k : Fin 4096, Bx V c t (ix2 r k) = X5 V c (ix2 n k) := fun k => by
    show X5 V c (((cfg1.win 0).blk t).view.emb (ix2 r k)) = _
    refine congrArg (X5 V c) (funext fun a => Fin.ext ?_)
    match a with
    | ⟨0, _⟩ => show win1_0.index t (0 : Fin 2) * 2048 + 1 * r.val = win1_3.index t (0 : Fin 2) * 2048 + r.val; omega
    | ⟨1, _⟩ => show win1_0.index t (1 : Fin 2) * 4096 + 1 * k.val = k.val; omega
  have ew : ∀ k : Fin 4096, Bw V c t (ix2 q k) = X6 V c (ix2 o k) := fun k => by
    show X6 V c (((cfg1.win 1).blk t).view.emb (ix2 q k)) = _
    refine congrArg (X6 V c) (funext fun a => Fin.ext ?_)
    match a with
    | ⟨0, _⟩ => show win1_1.index t (0 : Fin 2) * 256 + 1 * q.val = win1_3.index t (1 : Fin 2) * 256 + q.val; omega
    | ⟨1, _⟩ => show win1_1.index t (1 : Fin 2) * 4096 + 1 * k.val = k.val; omega
  have eb : Bb V c t (ix2 (0 : Fin 1) q) = X7 V c (ix2 (0 : Fin 1) o) := by
    show X7 V c (((cfg1.win 2).blk t).view.emb (ix2 (0 : Fin 1) q)) = _
    refine congrArg (X7 V c) (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + q.val; omega
  show k1_pay1 (F := Ideal) (Bx V c t) (Bw V c t) (Bb V c t) (ix2 r q) = Oarr V c (((cfg1.win 3).blk t).view.emb (ix2 r q))
  rw [mat_at (Bx V c t) (Bw V c t) (Bb V c t) r q, eo]
  show _ = outAt (X5 V c) (X6 V c) (X7 V c) n o
  unfold outAt
  rw [eb]
  exact congrArg (· + _) (Finset.sum_congr rfl fun k _ => by rw [ex, ew])

/-- An index of the output array is in point `t`'s block iff each coordinate is in the block's range on its axis. -/
theorem mem_blk1 (t : Fin cfg1.N) (i : S8192x11008.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v8).slice (win1_3.rect t)).set ↔ _
  rw [View.set_slice_whole, Rect.mem_set_unit]
  exact Iff.rfl

/-- Every index of the output array is in some point's block. -/
theorem cover1 (i : S8192x11008.Idx) : ∃ t : Fin cfg1.N, (cfg1.win 3).flush t = true ∧ i ∈ ((cfg1.win 3).blk t).view.set := by
  have hi0 : (i 0).val < 8192 := (i 0).isLt
  have hi1 : (i 1).val < 11008 := (i 1).isLt
  obtain ⟨t, ht⟩ := idx_onto1 ⟨(i 0).val / 2048, by omega⟩ ⟨(i 1).val / 256, by omega⟩
  have q0 : win1_3.index t (0 : Fin 2) = (i 0).val / 2048 := congrFun ht 0
  have q1 : win1_3.index t (1 : Fin 2) = (i 1).val / 256 := congrFun ht 1
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- THE OUTPUT ARRAY after the region. -/
theorem final1 (c : Dev nD) : (dat1 V c).arrAt 3 cfg1.N = Oarr V c :=
  (dat1 V c).arrAt_eq_of_cover 3 (Oarr V c) (fun t _ => flushed1 V c t) cover1

end Region

end Cert.KernelIdeal.MatRegion

end
-- ==== Proof.KHost.lean ====
/-
  The kernel program's host side, and its result.

  Before the first region the codes [11008, 512, 2] are taken apart into two [11008, 512] streams (a slice of the last
  axis, then a re-layout) and the input [4, 2048, 4096] is flattened to [8192, 4096] (and changed to a narrower float
  format, the identity at the ideal values); between the regions the bias is viewed [1, 11008]; after the second region
  its [8192, 11008] output is viewed [4, 2048, 11008]. Row n = 2048 b + s of the flattened input is (b, s); the first region
  leaves the weight array, the second contracts the flattened input with it: the result at (b, s, o) is
  (sum over k of x (b, s, k) * W (o, k)) + bias o.
-/
import proofs.«406902_j15985868276124_4_alg».proof.Proof.KDequant
import proofs.«406902_j15985868276124_4_alg».proof.Proof.KMatRegion
import Idealize.ShloMosaic.Lib.StableHlo.Run

set_option maxRecDepth 16384

noncomputable section

namespace Cert.KernelIdeal.Host

open Cert.KernelIdeal Cert.KernelIdeal.Gen Cert.KernelIdeal.Dequant Cert.KernelIdeal.MatRegion
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The argument arrays as launched, each at its literal type. -/
abbrev argX (c : Dev nD) : Vec Ideal S4x2048x4096 .f32 := m ((c : Thread nD τ).loc main_arg0)
abbrev argC (c : Dev nD) : Vec Ideal S11008x512x2 .i32 := m ((c : Thread nD τ).loc main_arg1)
abbrev argB (c : Dev nD) : Vec Ideal S2x256x1x8 .f32 := m ((c : Thread nD τ).loc main_arg2)
abbrev argS (c : Dev nD) : Vec Ideal S11008x1x1x1 .f32 := m ((c : Thread nD τ).loc main_arg3)
abbrev argBias (c : Dev nD) : Vec Ideal S11008 .f32 := m ((c : Thread nD τ).loc main_arg4)

/-! ## Entering the first region -/

theorem V1_v1 (c : Dev nD) : A0 (V1 m ρ) c
    = shapeCast S11008x512 (extractStridedSlice S11008x512x1 ![0, 0, 0] (argC m c) slices_S11008x512x2_S11008x512x1_0_0_0)
        shapeCasts_S11008x512x1_S11008x512 := by
  show StableHlo.after hostOps0 (W0 m ρ c) (Proc.devRef .tc main_v1) = _
  after_results
  rfl
theorem V1_v3 (c : Dev nD) : A1 (V1 m ρ) c
    = shapeCast S11008x512 (extractStridedSlice S11008x512x1 ![0, 0, 1] (argC m c) slices_S11008x512x2_S11008x512x1_0_0_1)
        shapeCasts_S11008x512x1_S11008x512 := by
  show StableHlo.after hostOps0 (W0 m ρ c) (Proc.devRef .tc main_v3) = _
  after_results
  rfl
theorem V1_arg2 (c : Dev nD) : A2 (V1 m ρ) c = argB m c := by
  show StableHlo.after hostOps0 (W0 m ρ c) (Proc.devRef .tc main_arg2) = _
  after_results
theorem V1_arg3 (c : Dev nD) : A3 (V1 m ρ) c = argS m c := by
  show StableHlo.after hostOps0 (W0 m ρ c) (Proc.devRef .tc main_arg3) = _
  after_results
theorem W1_v5 (c : Dev nD) : (W1 m ρ c (Proc.devRef .tc main_v5) : Vec Ideal S8192x4096 .bf16)
    = truncf (F := Ideal) .bf16 (shapeCast S8192x4096 (argX m c) shapeCasts_S4x2048x4096_S8192x4096) bitsLt_bf16_f32 := by
  show StableHlo.after hostOps0 (W0 m ρ c) (Proc.devRef .tc main_v5) = _
  after_results
  rfl
theorem W1_arg4 (c : Dev nD) : (W1 m ρ c (Proc.devRef .tc main_arg4) : Vec Ideal S11008 .f32) = argBias m c := by
  show StableHlo.after hostOps0 (W0 m ρ c) (Proc.devRef .tc main_arg4) = _
  after_results

/-- Stream `e` of the codes at (o, p) is code (o, p, e). -/
theorem stream0_at (c : Dev nD) (o : Fin 11008) (p : Fin 512) : A0 (V1 m ρ) c (ix2 o p) = argC m c (ix3 o p (0 : Fin 2)) := by
  rw [V1_v1, shapeCast_apply _ shapeCasts_S11008x512x1_S11008x512 (ix2 o p) (ix3 o p (0 : Fin 1))
      (by rw [Shape.rowMajor_val_three, Shape.rowMajor_val_two]
          show (o.val * 512 + p.val) * 1 + 0 = o.val * 512 + p.val
          omega),
    extractStridedSlice_apply _ _ slices_S11008x512x2_S11008x512x1_0_0_0 (ix3 o p (0 : Fin 1)) (ix3 o p (0 : Fin 2))
      (fun a => by
        match a with
        | ⟨0, _⟩ => exact (Nat.zero_add _).symm
        | ⟨1, _⟩ => exact (Nat.zero_add _).symm
        | ⟨2, _⟩ => rfl)]
theorem stream1_at (c : Dev nD) (o : Fin 11008) (p : Fin 512) : A1 (V1 m ρ) c (ix2 o p) = argC m c (ix3 o p (1 : Fin 2)) := by
  rw [V1_v3, shapeCast_apply _ shapeCasts_S11008x512x1_S11008x512 (ix2 o p) (ix3 o p (0 : Fin 1))
      (by rw [Shape.rowMajor_val_three, Shape.rowMajor_val_two]
          show (o.val * 512 + p.val) * 1 + 0 = o.val * 512 + p.val
          omega),
    extractStridedSlice_apply _ _ slices_S11008x512x2_S11008x512x1_0_0_1 (ix3 o p (0 : Fin 1)) (ix3 o p (1 : Fin 2))
      (fun a => by
        match a with
        | ⟨0, _⟩ => exact (Nat.zero_add _).symm
        | ⟨1, _⟩ => exact (Nat.zero_add _).symm
        | ⟨2, _⟩ => rfl)]

/-! ## Entering the second region -/

theorem V3_v5 (c : Dev nD) : X5 (V3 m ρ) c
    = truncf (F := Ideal) .bf16 (shapeCast S8192x4096 (argX m c) shapeCasts_S4x2048x4096_S8192x4096) bitsLt_bf16_f32 := by
  show StableHlo.after hostOps1 (W2 m ρ c) (Proc.devRef .tc main_v5) = _
  after_results
  rw [W2_of_ne m ρ c main_v5 (by decide)]
  exact W1_v5 m ρ c
theorem V3_v7 (c : Dev nD) : X7 (V3 m ρ) c = shapeCast S1x11008 (argBias m c) shapeCasts_S11008_S1x11008 := by
  show StableHlo.after hostOps1 (W2 m ρ c) (Proc.devRef .tc main_v7) = _
  after_results
  rw [W2_of_ne m ρ c main_arg4 (by decide), W1_arg4]
  rfl
/-- The weight array the second region finds is what the first region left. -/
theorem V3_v6 (c : Dev nD) (h0 : ∀ i, (A0 (V1 m ρ) c i : BitVec 32).toNat < 256) (h1 : ∀ i, (A1 (V1 m ρ) c i : BitVec 32).toNat < 256) :
    X6 (V3 m ρ) c = Warr (V1 m ρ) c := by
  show StableHlo.after hostOps1 (W2 m ρ c) (Proc.devRef .tc main_v6) = _
  after_results
  exact (W2_arr m ρ c 4).trans (final0 (V1 m ρ) c h0 h1)

/-! ## The result -/

theorem W5_v9 (c : Dev nD) : (W5 m ρ c (Proc.devRef .tc main_v9) : Vec Ideal S4x2048x11008 .f32)
    = shapeCast S4x2048x11008 (Oarr (V3 m ρ) c) shapeCasts_S8192x11008_S4x2048x11008 := by
  show StableHlo.after hostOps2 (W4 m ρ c) (Proc.devRef .tc main_v9) = _
  after_results
  rw [show W4 m ρ c (Proc.devRef .tc main_v8) = (dat1 (V3 m ρ) c).arrAt 3 cfg1.N from W4_arr m ρ c 3, final1]
  rfl

/-- THE KERNEL'S RESULT is the layer's output of the argument arrays, for codes below 256. -/
theorem result_eq (c : Dev nD) (hr : ∀ i, (argC m c i : BitVec 32).toNat < 256) :
    (W5 m ρ c (Proc.devRef .tc main_v9) : Vec Ideal S4x2048x11008 .f32)
      = Spec.Yarr (argX m c) (argC m c) (argB m c) (argS m c) (argBias m c) := by
  have h0 : ∀ i, (A0 (V1 m ρ) c i : BitVec 32).toNat < 256 := fun i => by
    obtain ⟨o, p, rfl⟩ : ∃ (o : Fin 11008) (p : Fin 512), i = ix2 o p := ⟨i 0, i 1, eq_ix2 i⟩
    rw [stream0_at]; exact hr _
  have h1 : ∀ i, (A1 (V1 m ρ) c i : BitVec 32).toNat < 256 := fun i => by
    obtain ⟨o, p, rfl⟩ : ∃ (o : Fin 11008) (p : Fin 512), i = ix2 o p := ⟨i 0, i 1, eq_ix2 i⟩
    rw [stream1_at]; exact hr _
  rw [W5_v9]
  funext i
  obtain ⟨b, s, o, rfl⟩ : ∃ (b : Fin 4) (s : Fin 2048) (o : Fin 11008), i = ix3 b s o := ⟨i 0, i 1, i 2, eq_ix3 i⟩
  have hb := b.isLt
  have hs := s.isLt
  let n : Fin 8192 := ⟨b.val * 2048 + s.val, by omega⟩
  rw [shapeCast_apply _ shapeCasts_S8192x11008_S4x2048x11008 (ix3 b s o) (ix2 n o)
    (by rw [Shape.rowMajor_val_three, Shape.rowMajor_val_two]; rfl)]
  show outAt (X5 (V3 m ρ) c) (X6 (V3 m ρ) c) (X7 (V3 m ρ) c) n o = Spec.Y (argX m c) (argC m c) (argB m c) (argS m c) (argBias m c) b s o
  unfold outAt Spec.Y
  rw [V3_v5, V3_v6 m ρ c h0 h1, V3_v7,
    shapeCast_apply _ shapeCasts_S11008_S1x11008 (ix2 (0 : Fin 1) o) (ix1 o)
      (by rw [Shape.rowMajor_val_two, Shape.rowMajor_val_one]
          show o.val = 0 * 11008 + o.val
          omega)]
  refine congrArg (· + _) (Finset.sum_congr rfl fun k _ => ?_)
  have hk := k.isLt
  rw [truncf_apply, shapeCast_apply _ shapeCasts_S4x2048x4096_S8192x4096 (ix2 n k) (ix3 b s k)
    (by rw [Shape.rowMajor_val_three, Shape.rowMajor_val_two]; rfl)]
  show _ * Spec.Wk (A0 (V1 m ρ) c) (A1 (V1 m ρ) c) (A2 (V1 m ρ) c) (A3 (V1 m ρ) c) o k = _
  rw [Spec.Wk_of_streams (argC m c) _ _ _ _ (stream0_at m ρ c) (stream1_at m ρ c), V1_arg2, V1_arg3]

end Cert.KernelIdeal.Host

end
-- ==== Proof.RefValue.lean ====
/-
  The reference, read index by index at the ideal values.

  Its weight matrix is built by a gather: for row o, group p and codebook m the start index is the pair
  (m, code (o, p, m)) — the first component an iota over the two codebooks, the second the code with jnp's treatment of a
  negative index (256 added) — and the gather clamps each component into its axis. For a code whose value is below 256
  neither the added 256 nor the clamp does anything, so the entry read is codebook m's row code (o, p, m). The two
  codebooks' entries are summed from zero, scaled by the row's scale, and laid out as 4096 columns (group p, position g
  at column 8 p + g). The output is the contraction of the input with that matrix along the columns, plus the bias.
-/
import proofs.«406902_j15985868276124_4_alg».proof.Defs
import proofs.«406902_j15985868276124_4_alg».proof.Proof.Gen.ReferenceIdeal.Run
import proofs.«406902_j15985868276124_4_alg».proof.Proof.Gen.ReferenceIdeal.Read
import proofs.«406902_j15985868276124_4_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RefSide

open Cert.ReferenceIdeal Cert.ReferenceIdeal.Gen Cert.ReferenceIdeal.Read
open Idealize.ShloMosaic Idealize.ShloMosaic.TcCoe Idealize.ShloMosaic.ValueIdx Idealize.ShloMosaic.StableHlo

/-! ## The gather read at an index -/

abbrev GD := gather_S2x256x1x8_S11008x512x2x2_S11008x512x2x1x8_34_01_n_n_01_3_1118

theorem siIdx0 (o : Fin 11008) (p : Fin 512) (m : Fin 2) (g : Fin 8) :
    GD.siIdx (ix5 o p m (0 : Fin 1) g) ⟨List.idxOf (0 : Fin 4) GD.startIndexMap, List.idxOf_lt_length_iff.2 (by decide)⟩
      = ix4 o p m (0 : Fin 2) := by
  funext b; refine Fin.ext ?_
  match b with
  | ⟨0, _⟩ => rfl
  | ⟨1, _⟩ => rfl
  | ⟨2, _⟩ => rfl
  | ⟨3, _⟩ => rfl

theorem siIdx1 (o : Fin 11008) (p : Fin 512) (m : Fin 2) (g : Fin 8) :
    GD.siIdx (ix5 o p m (0 : Fin 1) g) ⟨List.idxOf (1 : Fin 4) GD.startIndexMap, List.idxOf_lt_length_iff.2 (by decide)⟩
      = ix4 o p m (1 : Fin 2) := by
  funext b; refine Fin.ext ?_
  match b with
  | ⟨0, _⟩ => rfl
  | ⟨1, _⟩ => rfl
  | ⟨2, _⟩ => rfl
  | ⟨3, _⟩ => rfl

theorem gather_apply {α : Type} (x : S2x256x1x8.Idx → α) (idx : IVec S11008x512x2x2 32)
    (o : Fin 11008) (p : Fin 512) (m : Fin 2) (g : Fin 8) :
    Host.gather GD x idx (ix5 o p m (0 : Fin 1) g)
      = x (ix4 (⟨min (idx (ix4 o p m (0 : Fin 2))).toInt.toNat 1, by omega⟩ : Fin 2)
               (⟨min (idx (ix4 o p m (1 : Fin 2))).toInt.toNat 255, by omega⟩ : Fin 256) (0 : Fin 1) g) := by
  unfold Host.gather
  congr 1
  funext a
  refine Fin.ext ?_
  match a with
  | ⟨0, _⟩ =>
    show GD.start (ix5 o p m (0 : Fin 1) g) idx 0 + GD.batchCoord (ix5 o p m (0 : Fin 1) g) 0 + GD.offCoord (ix5 o p m (0 : Fin 1) g) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 4) ∈ GD.startIndexMap from by decide), siIdx0]
    rfl
  | ⟨1, _⟩ =>
    show GD.start (ix5 o p m (0 : Fin 1) g) idx 1 + GD.batchCoord (ix5 o p m (0 : Fin 1) g) 1 + GD.offCoord (ix5 o p m (0 : Fin 1) g) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 4) ∈ GD.startIndexMap from by decide), siIdx1]
    rfl
  | ⟨2, _⟩ =>
    show GD.start (ix5 o p m (0 : Fin 1) g) idx 2 + GD.batchCoord (ix5 o p m (0 : Fin 1) g) 2 + GD.offCoord (ix5 o p m (0 : Fin 1) g) 2 = _
    rw [GatherDims.batchCoord_eq_zero _ _ _ List.not_mem_nil]
    unfold GatherDims.start
    rw [dif_neg (show ¬ (2 : Fin 4) ∈ GD.startIndexMap from by decide)]
    rfl
  | ⟨3, _⟩ =>
    show GD.start (ix5 o p m (0 : Fin 1) g) idx 3 + GD.batchCoord (ix5 o p m (0 : Fin 1) g) 3 + GD.offCoord (ix5 o p m (0 : Fin 1) g) 3 = _
    rw [GatherDims.batchCoord_eq_zero _ _ _ List.not_mem_nil]
    unfold GatherDims.start
    rw [dif_neg (show ¬ (3 : Fin 4) ∈ GD.startIndexMap from by decide)]
    simp only [Nat.zero_add]
    unfold GatherDims.offCoord
    rw [dif_pos (show (3 : Fin 4) ∈ GD.sKept from by decide)]
    rfl

/-! ## The code words -/

/-- jnp's treatment of a negative index does nothing to a code below 256 (it is not negative). -/
theorem norm_code {w : BitVec 32} (h : w.toNat < 256) :
    Scalar.select (IntOp.cmpi .slt w 0#32) (IntOp.addi w 256#32) w = w := by
  have hn : ¬ IntOp.cmpi .slt w 0#32 = 1#1 := by
    rw [Predicate.slt_iff_toNat (by omega) (by decide)]
    simp
  rw [eq_zero_of_ne_one hn, select_zero]

/-- The gather's clamp into the 256 rows does nothing to a code below 256. -/
theorem clamp_code {w : BitVec 32} (h : w.toNat < 256) : min w.toInt.toNat 255 = w.toNat := by
  rw [Predicate.toInt_eq_toNat_of_lt (by omega), Int.toNat_natCast]
  omega

/-- The first component of a start index is the codebook's number. -/
theorem book_word (m : Fin 2) : min (val_main_v6 (F := Ideal) (ix3 (0 : Fin 1) (0 : Fin 1) m)).toInt.toNat 1 = m.val := by
  rw [val_main_v6_apply, val_main_v3_apply, val_main_v5_apply, val_main_v1_apply, val_main_v2_apply, val_main_v4_apply,
    val_main_c_apply, val_main_c_0_apply, val_main_v0_apply]
  show min (Scalar.select (IntOp.cmpi .slt (BitVec.ofNat 32 m.val) 0#32) (IntOp.addi (BitVec.ofNat 32 m.val) 2#32)
    (BitVec.ofNat 32 m.val)).toInt.toNat 1 = m.val
  fin_cases m <;> decide

/-! ## The start indices: the concatenation's two columns -/

theorem v15_col0 (x1 : (⟨S11008x512x2, .i32⟩ : BufTy).Contents (Elt Ideal)) (o : Fin 11008) (p : Fin 512) (m : Fin 2) :
    val_main_v15 (F := Ideal) x1 (ix4 o p m (0 : Fin 2)) = val_main_v6 (F := Ideal) (ix3 (0 : Fin 1) (0 : Fin 1) m) := by
  unfold val_main_v15
  rw [concatenate_pair_apply_left (t := S11008x512x2x2) (s₁ := S11008x512x2x1) (s₂ := S11008x512x2x1) (3 : Fin 4) _ _ _
    (ix4 o p m (0 : Fin 2)) rfl (ix4 o p m (0 : Fin 1))
    (fun b => by match b with | ⟨0, _⟩ => rfl | ⟨1, _⟩ => rfl | ⟨2, _⟩ => rfl | ⟨3, _⟩ => rfl)]
  rw [val_main_v13_apply, val_main_v12_apply]
  exact congrArg _ (funext fun a => Fin.ext (by match a with | ⟨0, _⟩ => rfl | ⟨1, _⟩ => rfl | ⟨2, _⟩ => rfl))

theorem v15_col1 (x1 : (⟨S11008x512x2, .i32⟩ : BufTy).Contents (Elt Ideal)) (o : Fin 11008) (p : Fin 512) (m : Fin 2) :
    val_main_v15 (F := Ideal) x1 (ix4 o p m (1 : Fin 2)) = val_main_v11 (F := Ideal) x1 (ix3 o p m) := by
  unfold val_main_v15
  rw [concatenate_pair_apply_right (t := S11008x512x2x2) (s₁ := S11008x512x2x1) (s₂ := S11008x512x2x1) (3 : Fin 4) _ _ _
    (ix4 o p m (1 : Fin 2)) rfl rfl (ix4 o p m (0 : Fin 1))
    (fun b hb => by match b with | ⟨0, _⟩ => rfl | ⟨1, _⟩ => rfl | ⟨2, _⟩ => rfl | ⟨3, _⟩ => exact absurd rfl hb)
    rfl]
  rw [val_main_v14_apply]
  exact congrArg _ (funext fun a => Fin.ext (by match a with | ⟨0, _⟩ => rfl | ⟨1, _⟩ => rfl | ⟨2, _⟩ => rfl))

/-! ## The gathered entry -/

/-- For codes below 256 the gather reads codebook `m`'s row `code (o, p, m)` at position `g`. -/
theorem v16_at (x1 : (⟨S11008x512x2, .i32⟩ : BufTy).Contents (Elt Ideal)) (x2 : (⟨S2x256x1x8, .f32⟩ : BufTy).Contents (Elt Ideal))
    (hr : ∀ i, (x1 i).toNat < 256) (o : Fin 11008) (p : Fin 512) (m : Fin 2) (g : Fin 8) :
    val_main_v16 (F := Ideal) x1 x2 (ix5 o p m (0 : Fin 1) g)
      = x2 (ix4 m (Spec.rowOf (x1 (ix3 o p m))) (0 : Fin 1) g) := by
  unfold val_main_v16
  rw [gather_apply]
  refine congrArg x2 (funext fun a => Fin.ext ?_)
  match a with
  | ⟨0, _⟩ =>
    show min (val_main_v15 (F := Ideal) x1 (ix4 o p m (0 : Fin 2))).toInt.toNat 1 = m.val
    rw [v15_col0, book_word]
  | ⟨1, _⟩ =>
    show min (val_main_v15 (F := Ideal) x1 (ix4 o p m (1 : Fin 2))).toInt.toNat 255 = (Spec.rowOf (x1 (ix3 o p m))).val
    rw [v15_col1, val_main_v11_apply, val_main_v8_apply, val_main_v10_apply, val_main_v7_apply, val_main_v9_apply,
      val_main_c_1_apply, val_main_c_2_apply, norm_code (hr _), clamp_code (hr _), Spec.rowOf_val_of_lt (hr _)]
  | ⟨2, _⟩ => rfl
  | ⟨3, _⟩ => rfl

/-! ## The weight matrix and the output -/

/-- The reference's weight at row `o`, column `j`, for codes below 256. -/
theorem W_ref (x1 : (⟨S11008x512x2, .i32⟩ : BufTy).Contents (Elt Ideal)) (x2 : (⟨S2x256x1x8, .f32⟩ : BufTy).Contents (Elt Ideal))
    (x3 : (⟨S11008x1x1x1, .f32⟩ : BufTy).Contents (Elt Ideal)) (hr : ∀ i, (x1 i).toNat < 256) (o : Fin 11008) (j : Fin 4096) :
    val_main_v21 (F := Ideal) x1 x2 x3 (ix2 o j) = Spec.W x1 x2 x3 o j := by
  have ho := o.isLt
  have hj := j.isLt
  have e1 : idx_main_v20 (idx_main_v21 (ix2 o j)) = ix4 o (Spec.grp j) (0 : Fin 1) (Spec.pos j) := by
    funext a; refine Fin.ext ?_
    match a with
    | ⟨0, _⟩ => show (o.val * 4096 + j.val) / 4096 = o.val; omega
    | ⟨1, _⟩ => show (o.val * 4096 + j.val) / 8 % 512 = j.val / 8; omega
    | ⟨2, _⟩ => rfl
    | ⟨3, _⟩ => show (o.val * 4096 + j.val) % 8 = j.val % 8; omega
  have e2 : ∀ m : Fin 2, idx_main_v17 (ix4 o (Spec.grp j) (0 : Fin 1) (Spec.pos j)) m
      = ix5 o (Spec.grp j) m (0 : Fin 1) (Spec.pos j) := fun m => by
    funext a; refine Fin.ext ?_
    match a with
    | ⟨0, _⟩ => rfl
    | ⟨1, _⟩ => rfl
    | ⟨2, _⟩ => rfl
    | ⟨3, _⟩ => rfl
    | ⟨4, _⟩ => rfl
  have e3 : idx_main_v18 (ix4 o (Spec.grp j) (0 : Fin 1) (Spec.pos j)) = ix4 o (0 : Fin 1) (0 : Fin 1) (0 : Fin 1) := by
    funext a; refine Fin.ext ?_
    match a with
    | ⟨0, _⟩ => rfl
    | ⟨1, _⟩ => rfl
    | ⟨2, _⟩ => rfl
    | ⟨3, _⟩ => rfl
  rw [val_main_v21_apply, val_main_v20_apply, e1, val_main_v19_apply, val_main_v17_apply, val_main_v18_apply, e3,
    Fin.sum_univ_two, e2, e2, v16_at x1 x2 hr, v16_at x1 x2 hr, val_main_cst_apply]
  show (Ideal.ofBits .f32 0x00000000#32 + _) * _ = _
  rw [Ideal.ofBits_zero_f32, zero_add]
  rfl

/-- The reference's output is the layer's output, for codes below 256. -/
theorem Y_ref (x0 : (⟨S4x2048x4096, .f32⟩ : BufTy).Contents (Elt Ideal)) (x1 : (⟨S11008x512x2, .i32⟩ : BufTy).Contents (Elt Ideal))
    (x2 : (⟨S2x256x1x8, .f32⟩ : BufTy).Contents (Elt Ideal)) (x3 : (⟨S11008x1x1x1, .f32⟩ : BufTy).Contents (Elt Ideal))
    (x4 : (⟨S11008, .f32⟩ : BufTy).Contents (Elt Ideal)) (hr : ∀ i, (x1 i).toNat < 256) :
    val_main_v25 (F := Ideal) x0 x1 x2 x3 x4 = Spec.Yarr x0 x1 x2 x3 x4 := by
  funext i
  obtain ⟨b, s, o, rfl⟩ : ∃ (b : Fin 4) (s : Fin 2048) (o : Fin 11008), i = ix3 b s o := ⟨i 0, i 1, i 2, eq_ix3 i⟩
  have el : ∀ k : Fin 4096, lidx_main_v22 (ix3 b s o) k = ix3 b s k := fun k =>
    funext fun a => Fin.ext (by match a with | ⟨0, _⟩ => rfl | ⟨1, _⟩ => rfl | ⟨2, _⟩ => rfl)
  have er : ∀ k : Fin 4096, ridx_main_v22 (ix3 b s o) k = ix2 o k := fun k =>
    funext fun a => Fin.ext (by match a with | ⟨0, _⟩ => rfl | ⟨1, _⟩ => rfl)
  have eb : idx_main_v23 (idx_main_v24 (ix3 b s o)) = ix1 o :=
    funext fun a => Fin.ext (by match a with | ⟨0, _⟩ => rfl)
  rw [val_main_v25_apply, val_main_v22_apply, val_main_v24_apply, val_main_v23_apply, eb]
  show (∑ k : Fin 4096, _) + _ = Spec.Y x0 x1 x2 x3 x4 b s o
  unfold Spec.Y
  refine congrArg (· + _) (Finset.sum_congr rfl fun k _ => ?_)
  rw [el, er, W_ref x1 x2 x3 hr]

end Cert.RefSide

end
-- ==== Proof.PreCodes.lean ====
/-
  What the precondition says of the codes. The printed predicate is a conjunction of five tests, the last of which is
  "every code c satisfies 0 <= c and c < 256" as signed 32-bit comparisons folded by an all-reduction. A word that is
  not negative as a signed number has its value below 2^31, and then the signed test c < 256 is the test on values:
  every code's value is below 256.
-/
import proofs.«406902_j15985868276124_4_alg».proof.Pre_finite_inputs
import Idealize.ShloMosaic.Lib.ValueIdx
import Idealize.ShloMosaic.Lib.ReduceAll
import Idealize.ShloMosaic.Lib.StableHlo.Predicate

noncomputable section

namespace Cert.PreCodes

open Cert.Pre_finite_inputs
open Idealize.ShloMosaic Idealize.ShloMosaic.ValueIdx Idealize.ShloMosaic.StableHlo

instance : Subsingleton S_.Idx := ⟨fun a b => funext fun d => d.elim0⟩

/-- A word that passes the signed test `0 <= w` has its value below 2^31. -/
theorem toNat_lt_of_sge_zero {w : BitVec 32} (h : IntOp.cmpi .sge w 0#32 = 1#1) : w.toNat < 2 ^ 31 := by
  unfold IntOp.cmpi at h
  rw [Predicate.ofBool_eq_one_iff] at h
  have h' : (0 : Int) ≤ w.toInt := by simpa [BitVec.sle] using h
  have hw := w.isLt
  rw [BitVec.toInt_eq_toNat_cond] at h'
  split at h' <;> omega

variable [Facts] {F : FTy → Type} [FloatOps F]

/-- THE CODES ARE ROWS: where the precondition holds, every code's value is below 256. -/
theorem codes_lt (a0 : FVec F S4x2048x4096 .f32) (a1 : IVec S11008x512x2 32) (a2 : FVec F S2x256x1x8 .f32)
    (a3 : FVec F S11008x1x1x1 .f32) (a4 : FVec F S11008 .f32)
    (h : fn (F := F) a0 a1 a2 a3 a4 = fun _ => 1#1) (i : S11008x512x2.Idx) : (a1 i).toNat < 256 := by
  have h0 := congrFun h ix0
  dsimp only [fn, fn_part1] at h0
  have h24 := (IntOp.andi_eq_one.mp (show IntOp.andi _ _ = 1#1 from h0)).2
  have hall := Host.reduce_andi_all _ _ _ _ _ h24 i
  obtain ⟨hge, hlt⟩ := IntOp.andi_eq_one.mp (show IntOp.andi _ _ = 1#1 from hall)
  have hge' : IntOp.cmpi .sge (a1 i) 0#32 = 1#1 := by
    have e := Predicate.bcast_scalar Facts.bcast_S_S11008x512x2 Facts.h_S_ (constantI S_ 32 0#32) i
    rw [show (cmpi .sge a1 (broadcastInDim S11008x512x2 ![] Facts.bcast_S_S11008x512x2 (constantI S_ 32 0#32))) i
      = IntOp.cmpi .sge (a1 i) (broadcastInDim S11008x512x2 ![] Facts.bcast_S_S11008x512x2 (constantI S_ 32 0#32) i) from rfl, e] at hge
    exact hge
  have hlt' : IntOp.cmpi .slt (a1 i) 256#32 = 1#1 := by
    have e := Predicate.bcast_scalar Facts.bcast_S_S11008x512x2 Facts.h_S_ (constantI S_ 32 256#32) i
    rw [show (cmpi .slt a1 (broadcastInDim S11008x512x2 ![] Facts.bcast_S_S11008x512x2 (constantI S_ 32 256#32))) i
      = IntOp.cmpi .slt (a1 i) (broadcastInDim S11008x512x2 ![] Facts.bcast_S_S11008x512x2 (constantI S_ 32 256#32) i) from rfl, e] at hlt
    exact hlt
  have h31 := toNat_lt_of_sge_zero hge'
  have := (Predicate.slt_iff_toNat h31 (by decide)).mp hlt'
  simpa using this

end Cert.PreCodes

end
-- ==== Proof.lean ====
/-
  A quantised linear layer against its jnp reference, over the extended reals.

  The weight matrix W (11008 x 4096) is stored as codes: column j of row o lies in group p = j / 8 at position g = j % 8,
  and W (o, j) = (cb (0, code (o, p, 0), 0, g) + cb (1, code (o, p, 1), 0, g)) * scale o. The layer's output is
  Y (b, s, o) = (sum over k of x (b, s, k) * W (o, k)) + bias o.

  The kernel program computes W in a first pass, 256 rows and 32 groups at a time, reading each codebook by a one-hot
  matrix product (row n of the one-hot matrix has its single 1 in the column of its code, so the product's row n is the
  codebook's row at that code; 1 * a = a and 0 * a = 0 hold for every extended real), and Y in a second pass as blocks of
  a matrix product over the flattened input. The reference gathers the codebooks' rows (jnp's negative-index wrap and the
  gather's clamp do nothing to a code in [0, 256)), sums them from zero, scales, and takes one contraction.
  Both are Y: no step moves a factor across a sum, so no finiteness of the float inputs is used; what is used of the
  precondition is that every code is a row of the 256-row codebooks, 0 <= code < 256.

  Proof/Spec.lean states W and Y; Proof/RefValue.lean reads the reference's stages down to Y; Proof/KChunk.lean and
  Proof/KMat.lean read the two bodies at an index; Proof/KDequant.lean and Proof/KMatRegion.lean take each region's
  blocks to its whole array; Proof/KHost.lean reads the host operations around the regions and the result;
  Proof/RunValue.lean is the run with the result buffer named; Proof/PreCodes.lean reads the codes' range off the
  precondition. The word-level program's frame and the three idealised programs' frames are the generated ones.
-/
import proofs.«406902_j15985868276124_4_alg».proof.Defs
import proofs.«406902_j15985868276124_4_alg».proof.Proof.Gen.Kernel
import proofs.«406902_j15985868276124_4_alg».proof.Proof.Gen.Kernel.Frame
import proofs.«406902_j15985868276124_4_alg».proof.Proof.Gen.KernelIdeal
import proofs.«406902_j15985868276124_4_alg».proof.Proof.Gen.KernelIdeal.Frame
import proofs.«406902_j15985868276124_4_alg».proof.Proof.Gen.ReferenceIdeal
import proofs.«406902_j15985868276124_4_alg».proof.Proof.Gen.ReferenceIdeal.Run
import proofs.«406902_j15985868276124_4_alg».proof.Proof.Gen.ReferenceIdeal.Read
import proofs.«406902_j15985868276124_4_alg».proof.Proof.Gen.Pre_finite_inputs
import proofs.«406902_j15985868276124_4_alg».proof.Proof.RunValue
import proofs.«406902_j15985868276124_4_alg».proof.Proof.KHost
import proofs.«406902_j15985868276124_4_alg».proof.Proof.RefValue
import proofs.«406902_j15985868276124_4_alg».proof.Proof.PreCodes

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments, whose codes the precondition keeps in [0, 256), both programs end with the
    layer's output `Y` of the arguments in their result buffers. -/
theorem algebraic : Cert.algebraic_KernelIdeal_ReferenceIdeal := by
  intro m ρ m' ρ' hpre hagree
  have hcodes : ∀ (c : Dev Cert.KernelIdeal.nD) i, (Cert.KernelIdeal.Host.argC m c i : BitVec 32).toNat < 256 :=
    fun c i => Cert.PreCodes.codes_lt _ _ _ _ _ (hpre c) i
  refine ⟨fun c => Cert.Spec.Yarr (Cert.KernelIdeal.Host.argX m c) (Cert.KernelIdeal.Host.argC m c)
    (Cert.KernelIdeal.Host.argB m c) (Cert.KernelIdeal.Host.argS m c) (Cert.KernelIdeal.Host.argBias m c), ?_, ?_⟩
  · exact (θ_run Cert.KernelIdeal.defs _ _).mono
      (fun _ h c => ⟨(h c).1.trans (Cert.KernelIdeal.Host.result_eq m ρ c (hcodes c)), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1,
      (hagree c).2.2.2.2]
    exact Cert.RefSide.Y_ref _ _ _ _ _ (hcodes c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
